-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S128x30 : Shape := ⟨2, ![128, 30]⟩
abbrev S30x30 : Shape := ⟨2, ![30, 30]⟩
abbrev S30 : Shape := ⟨1, ![30]⟩
abbrev S5x30 : Shape := ⟨2, ![5, 30]⟩
abbrev S5 : Shape := ⟨1, ![5]⟩
abbrev S_ : Shape := ⟨0, ![]⟩

class Facts : Prop where
  bcast_S_S128x30 : S_.BroadcastsInDim S128x30 (![] : Fin 0 → Fin S128x30.rank)
  reducesTo_S128x30_S_d0_1 : S128x30.ReducesTo [0, 1] S_
  h_S_ : 0 < S_.numel
  bcast_S_S30x30 : S_.BroadcastsInDim S30x30 (![] : Fin 0 → Fin S30x30.rank)
  reducesTo_S30x30_S_d0_1 : S30x30.ReducesTo [0, 1] S_
  bcast_S_S30 : S_.BroadcastsInDim S30 (![] : Fin 0 → Fin S30.rank)
  reducesTo_S30_S_d0 : S30.ReducesTo [0] S_
  bcast_S_S5x30 : S_.BroadcastsInDim S5x30 (![] : Fin 0 → Fin S5x30.rank)
  reducesTo_S5x30_S_d0_1 : S5x30.ReducesTo [0, 1] S_
  bcast_S_S5 : S_.BroadcastsInDim S5 (![] : Fin 0 → Fin S5.rank)
  reducesTo_S5_S_d0 : S5.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_arg9 : FVec F S5x30 .f32) (main_arg10 : FVec F S5 .f32) (main_v33 : IVec S_ 1) : IVec S_ 1 :=
  let main_v34 : FVec F S5x30 .f32 := Host.absf main_arg9
  let main_cst_12 : FVec F S_ .f32 := constant S_ .f32 0x7F800000#32
  let main_v35 : FVec F S5x30 .f32 := broadcastInDim S5x30 ![] bcast_S_S5x30 main_cst_12
  let main_v36 : IVec S5x30 1 := cmpf .olt main_v34 main_v35
  let main_c_13 : IVec S_ 1 := constantI S_ 1 1#1
  let main_v37 : IVec S_ 1 := (fun x v => Host.reduce IntOp.andi x v reducesTo_S5x30_S_d0_1 h_S_) main_v36 main_c_13
  let main_v38 : IVec S_ 1 := andi main_v33 main_v37
  let main_v39 : FVec F S5 .f32 := Host.absf main_arg10
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg0 main_v44
  let main_c_17 : IVec S_ 32 := constantI S_ 32 128#32
  let main_v46 : IVec S100000 32 := broadcastInDim S100000 ![] bcast_S_S100000 main_c_17
  let main_v47 : IVec S100000 1 := cmpi .slt main_arg0 main_v46
  let main_v48 : IVec S100000 1 := andi main_v45 main_v47
  let main_c_18 : IVec S_ 1 := constantI S_ 1 1#1
  let main_v49 : IVec S_ 1 := (fun x v => Host.reduce IntOp.andi x v reducesTo_S100000_S_d0 h_S_) main_v48 main_c_18
  let main_v50 : IVec S_ 1 := andi main_v43 main_v49
  main_v50

def fn_part1 {F : FTy → Type} [FloatOps F] (main_arg0 : IVec S100000 32) (main_arg6 : FVec F S30 .f32) (main_arg7 : FVec F S30x30 .f32) (main_arg8 : FVec F S30 .f32) (main_arg9 : FVec F S5x30 .f32) (main_arg10 : FVec F S5 .f32) (main_v13 : IVec S_ 1) (main_v16 : IVec S30x30 1) : IVec S_ 1 :=
  let main_c_5 : IVec S_ 1 := constantI S_ 1 1#1
  let main_v17 : IVec S_ 1 := (fun x v => Host.reduce IntOp.andi x v reducesTo_S30x30_S_d0_1 h_S_) main_v16 main_c_5
  let main_v18 : IVec S_ 1 := andi main_v13 main_v17
  let main_v19 : FVec F S30 .f32 := Host.absf main_arg6
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  let main_v24 : FVec F S30x30 .f32 := Host.absf main_arg7
  let main_cst_8 : FVec F S_ .f32 := constant S_ .f32 0x7F800000#32
  let main_v25 : FVec F S30x30 .f32 := broadcastInDim S30x30 ![] bcast_S_S30x30 main_cst_8
  let main_v26 : IVec S30x30 1 := cmpf .olt main_v24 main_v25
  let main_c_9 : IVec S_ 1 := constantI S_ 1 1#1
  let main_v27 : IVec S_ 1 := (fun x v => Host.reduce IntOp.andi x v reducesTo_S30x30_S_d0_1 h_S_) main_v26 main_c_9
  let main_v28 : IVec S_ 1 := andi main_v23 main_v27
  let main_v29 : FVec F S30 .f32 := Host.absf main_arg8
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg0 main_arg9 main_arg10 main_v33

def fn {F : FTy → Type} [FloatOps F] (main_arg0 : IVec S100000 32) (main_arg1 : IVec S2x1600000 32) (main_arg2 : FVec F S128x30 .f32) (main_arg3 : FVec F S30x30 .f32) (main_arg4 : FVec F S30 .f32) (main_arg5 : FVec F S30x30 .f32) (main_arg6 : FVec F S30 .f32) (main_arg7 : FVec F S30x30 .f32) (main_arg8 : FVec F S30 .f32) (main_arg9 : FVec F S5x30 .f32) (main_arg10 : FVec F S5 .f32) : IVec S_ 1 :=
  let main_v0 : FVec F S128x30 .f32 := Host.absf main_arg2
  let main_cst : FVec F S_ .f32 := constant S_ .f32 0x7F800000#32
  let main_v1 : FVec F S128x30 .f32 := broadcastInDim S128x30 ![] bcast_S_S128x30 main_cst
  let main_v2 : IVec S128x30 1 := cmpf .olt main_v0 main_v1
  let main_c : IVec S_ 1 := constantI S_ 1 1#1
  let main_v3 : IVec S_ 1 := (fun x v => Host.reduce IntOp.andi x v reducesTo_S128x30_S_d0_1 h_S_) main_v2 main_c
  let main_v4 : FVec F S30x30 .f32 := Host.absf main_arg3
  let main_cst_0 : FVec F S_ .f32 := constant S_ .f32 0x7F800000#32
  let main_v5 : FVec F S30x30 .f32 := broadcastInDim S30x30 ![] bcast_S_S30x30 main_cst_0
  let main_v6 : IVec S30x30 1 := cmpf .olt main_v4 main_v5
  let main_c_1 : IVec S_ 1 := constantI S_ 1 1#1
  let main_v7 : IVec S_ 1 := (fun x v => Host.reduce IntOp.andi x v reducesTo_S30x30_S_d0_1 h_S_) main_v6 main_c_1
  let main_v8 : IVec S_ 1 := andi main_v3 main_v7
  let main_v9 : FVec F S30 .f32 := Host.absf main_arg4
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_v14 : FVec F S30x30 .f32 := Host.absf main_arg5
  let main_cst_4 : FVec F S_ .f32 := constant S_ .f32 0x7F800000#32
  let main_v15 : FVec F S30x30 .f32 := broadcastInDim S30x30 ![] bcast_S_S30x30 main_cst_4
  let main_v16 : IVec S30x30 1 := cmpf .olt main_v14 main_v15
  fn_part1 (F := F) main_arg0 main_arg6 main_arg7 main_arg8 main_arg9 main_arg10 main_v13 main_v16
-- ==== Kernel.lean ====
abbrev S100000 : Shape := ⟨1, ![100000]⟩
abbrev S2x1600000 : Shape := ⟨2, ![2, 1600000]⟩
abbrev S128x30 : Shape := ⟨2, ![128, 30]⟩
abbrev S30x30 : Shape := ⟨2, ![30, 30]⟩
abbrev S30 : Shape := ⟨1, ![30]⟩
abbrev S5x30 : Shape := ⟨2, ![5, 30]⟩
abbrev S5 : Shape := ⟨1, ![5]⟩
abbrev S100000x1 : Shape := ⟨2, ![100000, 1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x30 : Shape := ⟨2, ![100000, 30]⟩
abbrev S10000x1 : Shape := ⟨2, ![10000, 1]⟩
abbrev S10000x30 : Shape := ⟨2, ![10000, 30]⟩
abbrev S10000x128 : Shape := ⟨2, ![10000, 128]⟩
abbrev S1700000x30 : Shape := ⟨2, ![1700000, 30]⟩
abbrev S1x30 : Shape := ⟨2, ![1, 30]⟩
abbrev S1x5 : Shape := ⟨2, ![1, 5]⟩
abbrev S100000x5 : Shape := ⟨2, ![100000, 5]⟩
abbrev S10000x5 : Shape := ⟨2, ![10000, 5]⟩

abbrev nBuf : Space → Nat
  | .hbm => 112
  | .vmem => 29
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S128x30, .f32⟩
  | .hbm, ⟨3, _⟩ => ⟨S30x30, .f32⟩
  | .hbm, ⟨4, _⟩ => ⟨S30, .f32⟩
  | .hbm, ⟨5, _⟩ => ⟨S30x30, .f32⟩
  | .hbm, ⟨6, _⟩ => ⟨S30, .f32⟩
  | .hbm, ⟨7, _⟩ => ⟨S30x30, .f32⟩
  | .hbm, ⟨8, _⟩ => ⟨S30, .f32⟩
  | .hbm, ⟨9, _⟩ => ⟨S5x30, .f32⟩
  | .hbm, ⟨10, _⟩ => ⟨S5, .f32⟩
  | .hbm, ⟨11, _⟩ => ⟨S100000x1, .i32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x30, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x30, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000x1, .f32⟩
  | .hbm, ⟨48, _⟩ => ⟨S1700000x30, .f32⟩
  | .hbm, ⟨49, _⟩ => ⟨S1700000x30, .f32⟩
  | .hbm, ⟨50, _⟩ => ⟨S_, .f32⟩
  | .hbm, ⟨51, _⟩ => ⟨S100000x30, .f32⟩
  | .hbm, ⟨52, _⟩ => ⟨S1700000x1, .i32⟩
  | .hbm, ⟨53, _⟩ => ⟨S100000x30, .f32⟩
  | .hbm, ⟨54, _⟩ => ⟨S1x30, .f32⟩
  | .hbm, ⟨55, _⟩ => ⟨S100000x30, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x30, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000, .f32⟩
  | .hbm, ⟨74, _⟩ => ⟨S1700000x1, .f32⟩
  | .hbm, ⟨75, _⟩ => ⟨S1700000x30, .f32⟩
  | .hbm, ⟨76, _⟩ => ⟨S1700000x30, .f32⟩
  | .hbm, ⟨77, _⟩ => ⟨S_, .f32⟩
  | .hbm, ⟨78, _⟩ => ⟨S100000x30, .f32⟩
  | .hbm, ⟨79, _⟩ => ⟨S1700000x1, .i32⟩
  | .hbm, ⟨80, _⟩ => ⟨S100000x30, .f32⟩
  | .hbm, ⟨81, _⟩ => ⟨S1x30, .f32⟩
  | .hbm, ⟨82, _⟩ => ⟨S100000x30, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x30, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000x1, .f32⟩
  | .hbm, ⟨102, _⟩ => ⟨S1700000x30, .f32⟩
  | .hbm, ⟨103, _⟩ => ⟨S1700000x30, .f32⟩
  | .hbm, ⟨104, _⟩ => ⟨S_, .f32⟩
  | .hbm, ⟨105, _⟩ => ⟨S100000x30, .f32⟩
  | .hbm, ⟨106, _⟩ => ⟨S1700000x1, .i32⟩
  | .hbm, ⟨107, _⟩ => ⟨S100000x30, .f32⟩
  | .hbm, ⟨108, _⟩ => ⟨S1x30, .f32⟩
  | .hbm, ⟨109, _⟩ => ⟨S100000x30, .f32⟩
  | .hbm, ⟨110, _⟩ => ⟨S1x5, .f32⟩
  | .hbm, ⟨111, _⟩ => ⟨S100000x5, .f32⟩
  | .local _ .vmem, ⟨0, _⟩ => ⟨S10000x1, .i32⟩
  | .local _ .vmem, ⟨1, _⟩ => ⟨S10000x1, .i32⟩
  | .local _ .vmem, ⟨2, _⟩ => ⟨S128x30, .f32⟩
  | .local _ .vmem, ⟨3, _⟩ => ⟨S10000x30, .f32⟩
  | .local _ .vmem, ⟨4, _⟩ => ⟨S10000x30, .f32⟩
  | .local _ .vmem, ⟨5, _⟩ => ⟨S10000x30, .f32⟩
  | .local _ .vmem, ⟨6, _⟩ => ⟨S10000x30, .f32⟩
  | .local _ .vmem, ⟨7, _⟩ => ⟨S30x30, .f32⟩
  | .local _ .vmem, ⟨8, _⟩ => ⟨S1x30, .f32⟩
  | .local _ .vmem, ⟨9, _⟩ => ⟨S10000x30, .f32⟩
  | .local _ .vmem, ⟨10, _⟩ => ⟨S10000x30, .f32⟩
  | .local _ .vmem, ⟨11, _⟩ => ⟨S10000x30, .f32⟩
  | .local _ .vmem, ⟨12, _⟩ => ⟨S10000x30, .f32⟩
  | .local _ .vmem, ⟨13, _⟩ => ⟨S30x30, .f32⟩
  | .local _ .vmem, ⟨14, _⟩ => ⟨S1x30, .f32⟩
  | .local _ .vmem, ⟨15, _⟩ => ⟨S10000x30, .f32⟩
  | .local _ .vmem, ⟨16, _⟩ => ⟨S10000x30, .f32⟩
  | .local _ .vmem, ⟨17, _⟩ => ⟨S10000x30, .f32⟩
  | .local _ .vmem, ⟨18, _⟩ => ⟨S10000x30, .f32⟩
  | .local _ .vmem, ⟨19, _⟩ => ⟨S30x30, .f32⟩
  | .local _ .vmem, ⟨20, _⟩ => ⟨S1x30, .f32⟩
  | .local _ .vmem, ⟨21, _⟩ => ⟨S10000x30, .f32⟩
  | .local _ .vmem, ⟨22, _⟩ => ⟨S10000x30, .f32⟩
  | .local _ .vmem, ⟨23, _⟩ => ⟨S10000x30, .f32⟩
  | .local _ .vmem, ⟨24, _⟩ => ⟨S10000x30, .f32⟩
  | .local _ .vmem, ⟨25, _⟩ => ⟨S5x30, .f32⟩
  | .local _ .vmem, ⟨26, _⟩ => ⟨S1x5, .f32⟩
  | .local _ .vmem, ⟨27, _⟩ => ⟨S10000x5, .f32⟩
  | .local _ .vmem, ⟨28, _⟩ => ⟨S10000x5, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S30x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x30 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x30 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S30x30 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x30 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x30 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x30 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S30x30 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x30 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x30 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x30 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S5x30 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x5 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x5 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S100000_S100000x1 : S100000.ShapeCasts S100000x1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  bitsLt_bf16_f32 : FTy.bits .bf16 < FTy.bits .f32
  inb_S128x30_S128x30_0_0 : ∀ a, (![0, 0] : Fin 2 → Nat) a + S128x30.size a ≤ S128x30.size a
  h_S128x30 : 0 < S128x30.numel
  inb_S10000x30_S10000x30_0_0 : ∀ a, (![0, 0] : Fin 2 → Nat) a + S10000x30.size a ≤ S10000x30.size a
  h_S10000x30 : 0 < S10000x30.numel
  bcast_S1700000x1_S1700000x30_0_1 : S1700000x1.BroadcastsInDim S1700000x30 (![0, 1] : Fin 2 → Fin S1700000x30.rank)
  bcast_S_S100000x30 : S_.BroadcastsInDim S100000x30 (![] : Fin 0 → Fin S100000x30.rank)
  shapeCasts_S30_S1x30 : S30.ShapeCasts S1x30
  shapeCasts_S10000x30_S10000x30 : S10000x30.ShapeCasts S10000x30
  inb_S30x30_S30x30_0_0 : ∀ a, (![0, 0] : Fin 2 → Nat) a + S30x30.size a ≤ S30x30.size a
  h_S30x30 : 0 < S30x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S10000x30 : S1x30.Broadcasts S10000x30
  shapeCasts_S5_S1x5 : S5.ShapeCasts S1x5
  inb_S5x30_S5x30_0_0 : ∀ a, (![0, 0] : Fin 2 → Nat) a + S5x30.size a ≤ S5x30.size a
  h_S5x30 : 0 < S5x30.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  scatter_S100000_S1700000x1_S1700000_n_0_0_1_wf : ScatterDims.WF S100000 S1700000x1 S1700000 [] [0] [0] 1
  dot_S10000x128_S128x30_S10000x30_1_0_0_1_n_n_wf : DotDims.WF S10000x128 S128x30 S10000x30 [1] [0] [0] [1] [] []
  gather_S100000x30_S1700000x1_S1700000x30_1_0_n_n_0_1_130_wf : GatherDims.WF S100000x30 S1700000x1 S1700000x30 [1] [0] [] [0] [] 1 ![1, 30]
  gather_S100000_S1700000x1_S1700000_n_0_n_n_0_1_1_wf : GatherDims.WF S100000 S1700000x1 S1700000 [] [0] [] [0] [] 1 ![1]
  scatter_S100000x30_S1700000x1_S1700000x30_1_0_0_1_wf : ScatterDims.WF S100000x30 S1700000x1 S1700000x30 [1] [0] [0] 1
  dot_S10000x30_S30x30_S10000x30_1_1_0_0_n_n_wf : DotDims.WF S10000x30 S30x30 S10000x30 [1] [1] [0] [0] [] []
  dot_S10000x30_S5x30_S10000x5_1_1_0_0_n_n_wf : DotDims.WF S10000x30 S5x30 S10000x5 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .i32 = 32 ∨ (Rect.block (s := S100000x1) S10000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x30.size a ≤ S128x30.size a
  hwx0_1 : ∀ i : grid0.Coords, EltTy.bits .f32 = 32 ∨ (Rect.block (s := S128x30) S128x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x30.size a ≤ S100000x30.size a
  hwx0_2 : ∀ i : grid0.Coords, EltTy.bits .f32 = 32 ∨ (Rect.block (s := S100000x30) S10000x30.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x30.size a ≤ S100000x30.size a
  hwx1_0 : ∀ i : grid1.Coords, EltTy.bits .f32 = 32 ∨ (Rect.block (s := S100000x30) S10000x30.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S30x30.size a ≤ S30x30.size a
  hwx1_1 : ∀ i : grid1.Coords, EltTy.bits .f32 = 32 ∨ (Rect.block (s := S30x30) S30x30.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x30.size a ≤ S1x30.size a
  hwx1_2 : ∀ i : grid1.Coords, EltTy.bits .f32 = 32 ∨ (Rect.block (s := S1x30) S1x30.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x30.size a ≤ S100000x30.size a
  hwx1_3 : ∀ i : grid1.Coords, EltTy.bits .f32 = 32 ∨ (Rect.block (s := S100000x30) S10000x30.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x30.size a ≤ S100000x30.size a
  hwx2_0 : ∀ i : grid2.Coords, EltTy.bits .f32 = 32 ∨ (Rect.block (s := S100000x30) S10000x30.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S30x30.size a ≤ S30x30.size a
  hwx2_1 : ∀ i : grid2.Coords, EltTy.bits .f32 = 32 ∨ (Rect.block (s := S30x30) S30x30.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x30.size a ≤ S1x30.size a
  hwx2_2 : ∀ i : grid2.Coords, EltTy.bits .f32 = 32 ∨ (Rect.block (s := S1x30) S1x30.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x30.size a ≤ S100000x30.size a
  hwx2_3 : ∀ i : grid2.Coords, EltTy.bits .f32 = 32 ∨ (Rect.block (s := S100000x30) S10000x30.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x30.size a ≤ S100000x30.size a
  hwx3_0 : ∀ i : grid3.Coords, EltTy.bits .f32 = 32 ∨ (Rect.block (s := S100000x30) S10000x30.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S30x30.size a ≤ S30x30.size a
  hwx3_1 : ∀ i : grid3.Coords, EltTy.bits .f32 = 32 ∨ (Rect.block (s := S30x30) S30x30.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x30.size a ≤ S1x30.size a
  hwx3_2 : ∀ i : grid3.Coords, EltTy.bits .f32 = 32 ∨ (Rect.block (s := S1x30) S1x30.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x30.size a ≤ S100000x30.size a
  hwx3_3 : ∀ i : grid3.Coords, EltTy.bits .f32 = 32 ∨ (Rect.block (s := S100000x30) S10000x30.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x30.size a ≤ S100000x30.size a
  hwx4_0 : ∀ i : grid4.Coords, EltTy.bits .f32 = 32 ∨ (Rect.block (s := S100000x30) S10000x30.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S5x30.size a ≤ S5x30.size a
  hwx4_1 : ∀ i : grid4.Coords, EltTy.bits .f32 = 32 ∨ (Rect.block (s := S5x30) S5x30.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x5.size a ≤ S1x5.size a
  hwx4_2 : ∀ i : grid4.Coords, EltTy.bits .f32 = 32 ∨ (Rect.block (s := S1x5) S1x5.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x5.size a ≤ S100000x5.size a
  hwx4_3 : ∀ i : grid4.Coords, EltTy.bits .f32 = 32 ∨ (Rect.block (s := S100000x5) S10000x5.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x30_S10000x30_1_0_0_1_n_n : DotDims S10000x128 S128x30 S10000x30 where
  lhsContracting := [1]
  rhsContracting := [0]
  lhsNonContracting := [0]
  rhsNonContracting := [1]
  lhsBatch := []
  rhsBatch := []
  wf := dot_S10000x128_S128x30_S10000x30_1_0_0_1_n_n_wf
def gather_S100000x30_S1700000x1_S1700000x30_1_0_n_n_0_1_130 : GatherDims S100000x30 S1700000x1 S1700000x30 where
  offsetDims := [1]
  collapsedSliceDims := [0]
  operandBatchingDims := []
  startIndicesBatchingDims := []
  startIndexMap := [0]
  indexVectorDim := 1
  sliceSizes := ![1, 30]
  wf := gather_S100000x30_S1700000x1_S1700000x30_1_0_n_n_0_1_130_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x30_S1700000x1_S1700000x30_1_0_0_1 : ScatterDims S100000x30 S1700000x1 S1700000x30 where
  updateWindowDims := [1]
  insertedWindowDims := [0]
  scatterDimsToOperandDims := [0]
  indexVectorDim := 1
  wf := scatter_S100000x30_S1700000x1_S1700000x30_1_0_0_1_wf
def dot_S10000x30_S30x30_S10000x30_1_1_0_0_n_n : DotDims S10000x30 S30x30 S10000x30 where
  lhsContracting := [1]
  rhsContracting := [1]
  lhsNonContracting := [0]
  rhsNonContracting := [0]
  lhsBatch := []
  rhsBatch := []
  wf := dot_S10000x30_S30x30_S10000x30_1_1_0_0_n_n_wf
def dot_S10000x30_S5x30_S10000x5_1_1_0_0_n_n : DotDims S10000x30 S5x30 S10000x5 where
  lhsContracting := [1]
  rhsContracting := [1]
  lhsNonContracting := [0]
  rhsNonContracting := [0]
  lhsBatch := []
  rhsBatch := []
  wf := dot_S10000x30_S5x30_S10000x5_1_1_0_0_n_n_wf

abbrev win0_0 : Pipeline.Window sig grid0 :=
  Pipeline.Window.ofSpec (Memref.whole main_v0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S30x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x30.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S10000x30.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S30x30.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x30.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S10000x30.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S10000x30.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S30x30.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x30.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S10000x30.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v80) S10000x30.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S5x30.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x5.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S10000x5.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000 : Shape := ⟨1, ![100000]⟩
abbrev S2x1600000 : Shape := ⟨2, ![2, 1600000]⟩
abbrev S128x30 : Shape := ⟨2, ![128, 30]⟩
abbrev S30x30 : Shape := ⟨2, ![30, 30]⟩
abbrev S30 : Shape := ⟨1, ![30]⟩
abbrev S5x30 : Shape := ⟨2, ![5, 30]⟩
abbrev S5 : Shape := ⟨1, ![5]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S100000x1 : Shape := ⟨2, ![100000, 1]⟩
abbrev S100000x30 : Shape := ⟨2, ![100000, 30]⟩
abbrev S1700000x1 : Shape := ⟨2, ![1700000, 1]⟩
abbrev S1700000x30 : Shape := ⟨2, ![1700000, 30]⟩
abbrev S1x30 : Shape := ⟨2, ![1, 30]⟩
abbrev S30x5 : Shape := ⟨2, ![30, 5]⟩
abbrev S100000x5 : Shape := ⟨2, ![100000, 5]⟩
abbrev S1x5 : Shape := ⟨2, ![1, 5]⟩

abbrev nBuf : Space → Nat
  | .hbm => 149
  | .vmem => 0
  | .smem => 0
  | _ => 0

abbrev hbmTy0_0 (i : Nat) : BufTy := match i % 128 with
  | 0 => ⟨S100000, .i32⟩
  | 1 => ⟨S2x1600000, .i32⟩
  | 2 => ⟨S128x30, .f32⟩
  | 3 => ⟨S30x30, .f32⟩
  | 4 => ⟨S30, .f32⟩
  | 5 => ⟨S30x30, .f32⟩
  | 6 => ⟨S30, .f32⟩
  | 7 => ⟨S30x30, .f32⟩
  | 8 => ⟨S30, .f32⟩
  | 9 => ⟨S5x30, .f32⟩
  | 10 => ⟨S5, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x30, .f32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x30, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000x1, .f32⟩
  | 52 => ⟨S1700000x30, .f32⟩
  | 53 => ⟨S1700000x30, .f32⟩
  | 54 => ⟨S_, .f32⟩
  | 55 => ⟨S100000x30, .f32⟩
  | 56 => ⟨S1700000x1, .i32⟩
  | 57 => ⟨S100000x30, .f32⟩
  | 58 => ⟨S30x30, .f32⟩
  | 59 => ⟨S100000x30, .f32⟩
  | 60 => ⟨S1x30, .f32⟩
  | 61 => ⟨S100000x30, .f32⟩
  | 62 => ⟨S100000x30, .f32⟩
  | 63 => ⟨S_, .f32⟩
  | 64 => ⟨S100000x30, .f32⟩
  | 65 => ⟨S100000x30, .f32⟩
  | 66 => ⟨S_, .f32⟩
  | 67 => ⟨S1700000, .f32⟩
  | 68 => ⟨S_, .f32⟩
  | 69 => ⟨S100000, .f32⟩
  | 70 => ⟨S1700000x1, .i32⟩
  | 71 => ⟨S100000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x30, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000x1, .f32⟩
  | 91 => ⟨S1700000x30, .f32⟩
  | 92 => ⟨S1700000x30, .f32⟩
  | 93 => ⟨S_, .f32⟩
  | 94 => ⟨S100000x30, .f32⟩
  | 95 => ⟨S1700000x1, .i32⟩
  | 96 => ⟨S100000x30, .f32⟩
  | 97 => ⟨S30x30, .f32⟩
  | 98 => ⟨S100000x30, .f32⟩
  | 99 => ⟨S1x30, .f32⟩
  | 100 => ⟨S100000x30, .f32⟩
  | 101 => ⟨S100000x30, .f32⟩
  | 102 => ⟨S_, .f32⟩
  | 103 => ⟨S100000x30, .f32⟩
  | 104 => ⟨S100000x30, .f32⟩
  | 105 => ⟨S_, .f32⟩
  | 106 => ⟨S1700000, .f32⟩
  | 107 => ⟨S_, .f32⟩
  | 108 => ⟨S100000, .f32⟩
  | 109 => ⟨S1700000x1, .i32⟩
  | 110 => ⟨S100000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x30, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000, .i32⟩

abbrev hbmTy0_1 (i : Nat) : BufTy := match i % 128 with
  | 0 => ⟨S1700000, .f32⟩
  | 1 => ⟨S1700000x1, .f32⟩
  | 2 => ⟨S1700000x30, .f32⟩
  | 3 => ⟨S1700000x30, .f32⟩
  | 4 => ⟨S_, .f32⟩
  | 5 => ⟨S100000x30, .f32⟩
  | 6 => ⟨S1700000x1, .i32⟩
  | 7 => ⟨S100000x30, .f32⟩
  | 8 => ⟨S30x30, .f32⟩
  | 9 => ⟨S100000x30, .f32⟩
  | 10 => ⟨S1x30, .f32⟩
  | 11 => ⟨S100000x30, .f32⟩
  | 12 => ⟨S100000x30, .f32⟩
  | 13 => ⟨S_, .f32⟩
  | 14 => ⟨S100000x30, .f32⟩
  | 15 => ⟨S100000x30, .f32⟩
  | 16 => ⟨S30x5, .f32⟩
  | 17 => ⟨S100000x5, .f32⟩
  | 18 => ⟨S1x5, .f32⟩
  | 19 => ⟨S100000x5, .f32⟩
  | 20 => ⟨S100000x5, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_cst : Ref sig .tc := ⟨.hbm, 63, rfl⟩
abbrev main_call0_v0 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call1_cst : Ref sig .tc := ⟨.hbm, 102, rfl⟩
abbrev main_call1_v0 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_v85 : Ref sig .tc := ⟨.hbm, 121, rfl⟩
abbrev main_v86 : Ref sig .tc := ⟨.hbm, 122, rfl⟩
abbrev main_c_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_20 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call2_cst : Ref sig .tc := ⟨.hbm, 141, rfl⟩
abbrev main_call2_v0 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x30_0_1 : S1700000x1.BroadcastsInDim S1700000x30 (![0, 1] : Fin 2 → Fin S1700000x30.rank)
  bcast_S_S100000x30 : S_.BroadcastsInDim S100000x30 (![] : Fin 0 → Fin S100000x30.rank)
  transposes_S30x30_S30x30_1_0 : S30x30.Transposes [1, 0] S30x30
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  transposes_S5x30_S30x5_1_0 : S5x30.Transposes [1, 0] S30x5
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  gather_S128x30_S100000x1_S100000x30_1_0_n_n_0_1_130_wf : GatherDims.WF S128x30 S100000x1 S100000x30 [1] [0] [] [0] [] 1 ![1, 30]
  scatter_S100000_S1700000x1_S1700000_n_0_0_1_wf : ScatterDims.WF S100000 S1700000x1 S1700000 [] [0] [0] 1
  gather_S100000x30_S1700000x1_S1700000x30_1_0_n_n_0_1_130_wf : GatherDims.WF S100000x30 S1700000x1 S1700000x30 [1] [0] [] [0] [] 1 ![1, 30]
  gather_S100000_S1700000x1_S1700000_n_0_n_n_0_1_1_wf : GatherDims.WF S100000 S1700000x1 S1700000 [] [0] [] [0] [] 1 ![1]
  scatter_S100000x30_S1700000x1_S1700000x30_1_0_0_1_wf : ScatterDims.WF S100000x30 S1700000x1 S1700000x30 [1] [0] [0] 1
  dot_S100000x30_S30x30_S100000x30_1_0_0_1_n_n_wf : DotDims.WF S100000x30 S30x30 S100000x30 [1] [0] [0] [1] [] []
  dot_S100000x30_S30x5_S100000x5_1_0_0_1_n_n_wf : DotDims.WF S100000x30 S30x5 S100000x5 [1] [0] [0] [1] [] []

variable [Facts₀]

def gather_S128x30_S100000x1_S100000x30_1_0_n_n_0_1_130 : GatherDims S128x30 S100000x1 S100000x30 where
  offsetDims := [1]
  collapsedSliceDims := [0]
  operandBatchingDims := []
  startIndicesBatchingDims := []
  startIndexMap := [0]
  indexVectorDim := 1
  sliceSizes := ![1, 30]
  wf := gather_S128x30_S100000x1_S100000x30_1_0_n_n_0_1_130_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x30_S1700000x1_S1700000x30_1_0_n_n_0_1_130 : GatherDims S100000x30 S1700000x1 S1700000x30 where
  offsetDims := [1]
  collapsedSliceDims := [0]
  operandBatchingDims := []
  startIndicesBatchingDims := []
  startIndexMap := [0]
  indexVectorDim := 1
  sliceSizes := ![1, 30]
  wf := gather_S100000x30_S1700000x1_S1700000x30_1_0_n_n_0_1_130_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x30_S1700000x1_S1700000x30_1_0_0_1 : ScatterDims S100000x30 S1700000x1 S1700000x30 where
  updateWindowDims := [1]
  insertedWindowDims := [0]
  scatterDimsToOperandDims := [0]
  indexVectorDim := 1
  wf := scatter_S100000x30_S1700000x1_S1700000x30_1_0_0_1_wf
def dot_S100000x30_S30x30_S100000x30_1_0_0_1_n_n : DotDims S100000x30 S30x30 S100000x30 where
  lhsContracting := [1]
  rhsContracting := [0]
  lhsNonContracting := [0]
  rhsNonContracting := [1]
  lhsBatch := []
  rhsBatch := []
  wf := dot_S100000x30_S30x30_S100000x30_1_0_0_1_n_n_wf
def dot_S100000x30_S30x5_S100000x5_1_0_0_1_n_n : DotDims S100000x30 S30x5 S100000x5 where
  lhsContracting := [1]
  rhsContracting := [0]
  lhsNonContracting := [0]
  rhsNonContracting := [1]
  lhsBatch := []
  rhsBatch := []
  wf := dot_S100000x30_S30x5_S100000x5_1_0_0_1_n_n_wf

class Facts : Prop extends Facts₀ where

variable [Facts]
-- ==== Proof.KChain.lean ====
/-
  The kernel program's host side as functions of the argument arrays: the edge list with self loops (row, column), the
  reciprocal in-degree, and the degree-normalised neighbourhood sum between two launches.
-/
import proofs.«419415_j21852793602865_2_alg».proof.Proof.Gen.KernelIdeal
import Idealize.ShloMosaic.PureOps.Ideal

noncomputable section

namespace Cert.KChain

open Idealize.ShloMosaic Cert.KernelIdeal Cert.KernelIdeal.Facts₀

/-- The sources of the edges, the nodes' own numbers appended (one self loop per node). -/
def rowOf (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The targets of the edges, the nodes' own numbers appended. -/
def colOf (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- How many edges leave each node (the self loop counted): ones added up at the sources. -/
def degOf (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (rowOf ei))
    (broadcastInDim S1700000 ![] bcast_S_S1700000 (constant (F := Ideal) S_ .f32 0x3F800000#32))

/-- Its reciprocal. -/
def degInvOf (ei : IVec S2x1600000 32) : FVec Ideal S100000 .f32 :=
  Host.divf (F := Ideal) (broadcastInDim S100000 ![] bcast_S_S100000 (constant (F := Ideal) S_ .f32 0x3F800000#32)) (degOf ei)

/-- The sources as gather indices: a negative number counted from the end. -/
def srcIdx (ei : IVec S2x1600000 32) : IVec S1700000x1 32 :=
  broadcastInDim S1700000x1 ![0] bcast_S1700000_S1700000x1_0
    (select (cmpi .slt (rowOf ei) (broadcastInDim S1700000 ![] bcast_S_S1700000 (constantI S_ 32 0#32)))
      (addi (rowOf ei) (broadcastInDim S1700000 ![] bcast_S_S1700000 (constantI S_ 32 100000#32))) (rowOf ei))

/-- One neighbourhood sum as the kernel program spells it: each edge carries its source's feature row times the
    source's reciprocal degree, and the rows are added up at the targets. -/
def agg (ei : IVec S2x1600000 32) (h : FVec Ideal S100000x30 .f32) :
    FVec Ideal S100000x30 .f32 :=
  Host.scatterAdd (F := Ideal) scatter_S100000x30_S1700000x1_S1700000x30_1_0_0_1
    (broadcastInDim S100000x30 ![] bcast_S_S100000x30 (constant (F := Ideal) S_ .f32 0x00000000#32))
    (broadcastInDim S1700000x1 ![0] bcast_S1700000_S1700000x1_0 (colOf ei))
    (mulf (Host.gather gather_S100000x30_S1700000x1_S1700000x30_1_0_n_n_0_1_130 h (srcIdx ei))
      (broadcastInDim S1700000x30 ![0, 1] bcast_S1700000x1_S1700000x30_0_1
        (broadcastInDim S1700000x1 ![0] bcast_S1700000_S1700000x1_0
          (Host.gather gather_S100000_S1700000x1_S1700000_n_0_n_n_0_1_1 (degInvOf ei) (srcIdx ei)))))

end Cert.KChain

end
-- ==== Proof.Spec.lean ====
/-
  The mathematics both programs compute, index by index, on the extended reals.

  A node carries a token id in [0, 128); its first feature row is that row of the embedding table.
  One layer sends a feature matrix a to max (a · wᵀ + b) 0: entry (r, q) is the sum over k of
  a (r, k) * w (q, k), plus the bias at q, clipped below at zero. The output head is the same affine
  map into five classes with no clipping. (What happens between two layers — the degree-normalised
  neighbourhood sum over the edge list — both programs spell with the same host operations; it is not
  restated here.)
-/
import Idealize.ShloMosaic.PureOps.Ideal
import Idealize.ShloMosaic.Lib.ValueIdx

noncomputable section

namespace Cert.Spec

open Idealize.ShloMosaic Idealize.ShloMosaic.ValueIdx

/-- The table's row at each node's id; the id is read as a natural number (taken modulo the table's
    height, which changes nothing for an id in range). -/
def embedRows (x : (⟨2, ![100000, 1]⟩ : Shape).Idx → BitVec 32) (emb : (⟨2, ![128, 30]⟩ : Shape).Idx → EReal) :
    (⟨2, ![100000, 30]⟩ : Shape).Idx → EReal :=
  fun i => emb (ix2 (⟨(x (ix2 (i 0) (0 : Fin 1))).toNat % 128, Nat.mod_lt _ (by decide)⟩ : Fin 128) (i 1))

/-- One hidden layer: max (a · wᵀ + b) 0, the bias kept as a 1 × 30 row. -/
def layer (a : (⟨2, ![100000, 30]⟩ : Shape).Idx → EReal) (w : (⟨2, ![30, 30]⟩ : Shape).Idx → EReal)
    (b : (⟨2, ![1, 30]⟩ : Shape).Idx → EReal) : (⟨2, ![100000, 30]⟩ : Shape).Idx → EReal :=
  fun i => max ((∑ k : Fin 30, a (ix2 (i 0) k) * w (ix2 (i 1) k)) + b (ix2 (0 : Fin 1) (i 1))) 0

/-- The output head: a · wᵀ + b into five classes, the bias kept as a 1 × 5 row. -/
def head (a : (⟨2, ![100000, 30]⟩ : Shape).Idx → EReal) (w : (⟨2, ![5, 30]⟩ : Shape).Idx → EReal)
    (b : (⟨2, ![1, 5]⟩ : Shape).Idx → EReal) : (⟨2, ![100000, 5]⟩ : Shape).Idx → EReal :=
  fun i => (∑ k : Fin 30, a (ix2 (i 0) k) * w (ix2 (i 1) k)) + b (ix2 (0 : Fin 1) (i 1))

/-- A length-n vector as an n × 1 column. -/
def colVec {α : Type} {n : ℕ} (x : (⟨1, ![n]⟩ : Shape).Idx → α) : (⟨2, ![n, 1]⟩ : Shape).Idx → α :=
  fun i => x (ix1 (i 0))

/-- A length-n vector as a 1 × n row. -/
def rowVec {α : Type} {n : ℕ} (x : (⟨1, ![n]⟩ : Shape).Idx → α) : (⟨2, ![1, n]⟩ : Shape).Idx → α :=
  fun i => x (ix1 (i 1))

/-- The whole network over a neighbourhood-sum map A applied between the layers: the embedding rows, three hidden
    layers each after one application of A, and the output head. -/
def net (A : ((⟨2, ![100000, 30]⟩ : Shape).Idx → EReal) → ((⟨2, ![100000, 30]⟩ : Shape).Idx → EReal))
    (x : (⟨1, ![100000]⟩ : Shape).Idx → BitVec 32) (emb : (⟨2, ![128, 30]⟩ : Shape).Idx → EReal)
    (w1 : (⟨2, ![30, 30]⟩ : Shape).Idx → EReal) (b1 : (⟨1, ![30]⟩ : Shape).Idx → EReal)
    (w2 : (⟨2, ![30, 30]⟩ : Shape).Idx → EReal) (b2 : (⟨1, ![30]⟩ : Shape).Idx → EReal)
    (w3 : (⟨2, ![30, 30]⟩ : Shape).Idx → EReal) (b3 : (⟨1, ![30]⟩ : Shape).Idx → EReal)
    (wout : (⟨2, ![5, 30]⟩ : Shape).Idx → EReal) (bout : (⟨1, ![5]⟩ : Shape).Idx → EReal) :
    (⟨2, ![100000, 5]⟩ : Shape).Idx → EReal :=
  head (layer (A (layer (A (layer (A (embedRows (colVec x) emb)) w1 (rowVec b1))) w2 (rowVec b2))) w3 (rowVec b3))
    wout (rowVec bout)

/-- Dividing by a nonzero extended real is multiplying by its reciprocal: h * (1 / d) = h / d, at the
    infinities too, since both sides are h * d⁻¹ once d ≠ 0. -/
theorem mul_one_div (h d : EReal) (hd : d ≠ 0) : h * Ideal.div 1 d = Ideal.div h d := by
  unfold Ideal.div
  rw [if_neg hd, if_neg hd, one_mul]

end Cert.Spec

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KHost.lean ====
/-
  The kernel program's host stretches read as functions: what each stretch between two launches leaves in the buffers
  the next launch and the later stretches read.
-/
import proofs.«419415_j21852793602865_2_alg».proof.Proof.Gen.KernelIdeal.Launch
import proofs.«419415_j21852793602865_2_alg».proof.Proof.KChain
import proofs.«419415_j21852793602865_2_alg».proof.Proof.Spec
import proofs.«419415_j21852793602865_2_alg».proof.Proof.LibColumn
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KHost

open Idealize.ShloMosaic Idealize.ShloMosaic.TcCoe Idealize.ShloMosaic.StableHlo Idealize.ShloMosaic.ValueIdx
open Cert.KernelIdeal Cert.KernelIdeal.Facts₀

/-- The neighbourhood sum over explicit edge data: sources, targets, reciprocal degrees. -/
def aggRaw (row col : IVec S1700000 32) (dinv : FVec Ideal S100000 .f32) (h : FVec Ideal S100000x30 .f32) :
    FVec Ideal S100000x30 .f32 :=
  Host.scatterAdd (F := Ideal) scatter_S100000x30_S1700000x1_S1700000x30_1_0_0_1
    (broadcastInDim S100000x30 ![] bcast_S_S100000x30 (constant (F := Ideal) S_ .f32 0x00000000#32))
    (broadcastInDim S1700000x1 ![0] bcast_S1700000_S1700000x1_0 col)
    (mulf (Host.gather gather_S100000x30_S1700000x1_S1700000x30_1_0_n_n_0_1_130 h
        (broadcastInDim S1700000x1 ![0] bcast_S1700000_S1700000x1_0
          (select (cmpi .slt row (broadcastInDim S1700000 ![] bcast_S_S1700000 (constantI S_ 32 0#32)))
            (addi row (broadcastInDim S1700000 ![] bcast_S_S1700000 (constantI S_ 32 100000#32))) row)))
      (broadcastInDim S1700000x30 ![0, 1] bcast_S1700000x1_S1700000x30_0_1
        (broadcastInDim S1700000x1 ![0] bcast_S1700000_S1700000x1_0
          (Host.gather gather_S100000_S1700000x1_S1700000_n_0_n_n_0_1_1 dinv
            (broadcastInDim S1700000x1 ![0] bcast_S1700000_S1700000x1_0
              (select (cmpi .slt row (broadcastInDim S1700000 ![] bcast_S_S1700000 (constantI S_ 32 0#32)))
                (addi row (broadcastInDim S1700000 ![] bcast_S_S1700000 (constantI S_ 32 100000#32))) row))))))

theorem agg_eq_raw (ei : IVec S2x1600000 32) (h : FVec Ideal S100000x30 .f32) :
    Cert.KChain.agg ei h = aggRaw (Cert.KChain.rowOf ei) (Cert.KChain.colOf ei) (Cert.KChain.degInvOf ei) h := rfl

variable (V : Valuation τ sig (Elt Ideal))

/-! ## The first stretch: the id column, the edge list with self loops, the reciprocal degrees -/

theorem h0_ids : StableHlo.after (Gen.hostOps0 (F := Ideal)) V (Proc.devRef .tc main_v0)
    = shapeCast S100000x1 (V (Proc.devRef .tc main_arg0) : IVec S100000 32) shapeCasts_S100000_S100000x1 := by
  after_results; rfl

theorem h0_row : StableHlo.after (Gen.hostOps0 (F := Ideal)) V (Proc.devRef .tc main_v4)
    = Cert.KChain.rowOf (V (Proc.devRef .tc main_arg1)) := by
  after_results; rfl

theorem h0_col : StableHlo.after (Gen.hostOps0 (F := Ideal)) V (Proc.devRef .tc main_v7)
    = Cert.KChain.colOf (V (Proc.devRef .tc main_arg1)) := by
  after_results; rfl

theorem h0_dinv : StableHlo.after (Gen.hostOps0 (F := Ideal)) V (Proc.devRef .tc main_v13)
    = Cert.KChain.degInvOf (V (Proc.devRef .tc main_arg1)) := by
  after_results; rfl

/-! ## The stretches between the launches: one neighbourhood sum of the last launch's output, and the next bias as a row -/

set_option maxHeartbeats 4000000 in
theorem h1_agg : StableHlo.after (Gen.hostOps1 (F := Ideal)) V (Proc.devRef .tc main_v34)
    = aggRaw (V (Proc.devRef .tc main_v4)) (V (Proc.devRef .tc main_v7)) (V (Proc.devRef .tc main_v13))
        (V (Proc.devRef .tc main_v14)) := by
  after_results_simp <;> rfl

theorem h1_bias : StableHlo.after (Gen.hostOps1 (F := Ideal)) V (Proc.devRef .tc main_v35)
    = shapeCast S1x30 (V (Proc.devRef .tc main_arg4) : FVec Ideal S30 .f32) shapeCasts_S30_S1x30 := by
  after_results; rfl

set_option maxHeartbeats 4000000 in
theorem h2_agg : StableHlo.after (Gen.hostOps2 (F := Ideal)) V (Proc.devRef .tc main_v56)
    = aggRaw (V (Proc.devRef .tc main_v4)) (V (Proc.devRef .tc main_v7)) (V (Proc.devRef .tc main_v13))
        (V (Proc.devRef .tc main_v36)) := by
  after_results_simp <;> rfl

theorem h2_bias : StableHlo.after (Gen.hostOps2 (F := Ideal)) V (Proc.devRef .tc main_v57)
    = shapeCast S1x30 (V (Proc.devRef .tc main_arg6) : FVec Ideal S30 .f32) shapeCasts_S30_S1x30 := by
  after_results; rfl

set_option maxHeartbeats 4000000 in
theorem h3_agg : StableHlo.after (Gen.hostOps3 (F := Ideal)) V (Proc.devRef .tc main_v78)
    = aggRaw (V (Proc.devRef .tc main_v4)) (V (Proc.devRef .tc main_v7)) (V (Proc.devRef .tc main_v13))
        (V (Proc.devRef .tc main_v58)) := by
  after_results_simp <;> rfl

theorem h3_bias : StableHlo.after (Gen.hostOps3 (F := Ideal)) V (Proc.devRef .tc main_v79)
    = shapeCast S1x30 (V (Proc.devRef .tc main_arg8) : FVec Ideal S30 .f32) shapeCasts_S30_S1x30 := by
  after_results; rfl

theorem h4_bias : StableHlo.after (Gen.hostOps4 (F := Ideal)) V (Proc.devRef .tc main_v81)
    = shapeCast S1x5 (V (Proc.devRef .tc main_arg10) : FVec Ideal S5 .f32) shapeCasts_S5_S1x5 := by
  after_results; rfl

/-! ## A vector recast as a column or as a row -/

theorem colVec_eq {α : Type} {n : ℕ} (x : (⟨1, ![n]⟩ : Shape).Idx → α) (h : (⟨1, ![n]⟩ : Shape).ShapeCasts ⟨2, ![n, 1]⟩) :
    shapeCast ⟨2, ![n, 1]⟩ x h = Cert.Spec.colVec x := by
  funext i
  obtain ⟨p, u, rfl⟩ : ∃ (p : Fin n) (u : Fin 1), i = ix2 p u := ⟨i 0, i 1, eq_ix2 i⟩
  exact Cert.LibColumn.shapeCast_a_a1_apply x h p u

theorem rowVec_eq {α : Type} {n : ℕ} (x : (⟨1, ![n]⟩ : Shape).Idx → α) (h : (⟨1, ![n]⟩ : Shape).ShapeCasts ⟨2, ![1, n]⟩) :
    shapeCast ⟨2, ![1, n]⟩ x h = Cert.Spec.rowVec x := by
  funext i
  obtain ⟨u, q, rfl⟩ : ∃ (u : Fin 1) (q : Fin n), i = ix2 u q := ⟨i 0, i 1, eq_ix2 i⟩
  exact shapeCast_a_1a_apply x h u q

end Cert.KHost

end
-- ==== Proof.PayEmbed.lean ====
/-
  The embedding kernel's body read at an index, on the extended reals: the product of a one-hot row with the table is the table's row at the id.
-/
import proofs.«419415_j21852793602865_2_alg».proof.Proof.Gen.KernelIdeal.Skeleton
import proofs.«419415_j21852793602865_2_alg».proof.Proof.Spec
import proofs.«419415_j21852793602865_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.Pay

open Idealize.ShloMosaic Idealize.ShloMosaic.ValueIdx Cert.KernelIdeal Cert.KernelIdeal.Gen

/-! ## One entry of the one-hot row: a word compare, widened and converted -/

/-- Equal words compare to the set bit; widened to 32 bits it is the word one, whose signed value is the real 1. -/
private theorem onehot_of_eq (a b : BitVec 32) (h : a = b) :
    (FloatOps.sitofp (F := Ideal) .f32 ((IntOp.cmpi .eq a b).setWidth 32) : Ideal .f32) = (1 : EReal) := by
  subst h
  have e : IntOp.cmpi .eq a a = 1#1 := by simp [IntOp.cmpi]
  rw [e]
  show ((((1#1 : BitVec 1).setWidth 32).toInt : ℝ) : EReal) = 1
  have e2 : ((1#1 : BitVec 1).setWidth 32).toInt = 1 := by decide
  rw [e2]
  simp

/-- Different words compare to the clear bit; widened it is the word zero, whose signed value is the real 0. -/
private theorem onehot_of_ne (a b : BitVec 32) (h : a ≠ b) :
    (FloatOps.sitofp (F := Ideal) .f32 ((IntOp.cmpi .eq a b).setWidth 32) : Ideal .f32) = (0 : EReal) := by
  have hb : (a == b) = false := beq_eq_false_iff_ne.mpr h
  have e : IntOp.cmpi .eq a b = 0#1 := by
    unfold IntOp.cmpi
    show BitVec.ofBool (a == b) = 0#1
    rw [hb]
    rfl
  rw [e]
  show ((((0#1 : BitVec 1).setWidth 32).toInt : ℝ) : EReal) = 0
  have e2 : ((0#1 : BitVec 1).setWidth 32).toInt = 0 := by decide
  rw [e2]
  simp

/-- A 32-bit word is the word of its own value. -/
private theorem ofNat_toNat_self (x : BitVec 32) : BitVec.ofNat 32 x.toNat = x := by
  apply BitVec.eq_of_toNat_eq
  rw [BitVec.toNat_ofNat]
  exact Nat.mod_eq_of_lt x.isLt

/-- A word equal to the word of a column number below 128 has that number as its value. -/
private theorem toNat_of_eq_ofNat (x : BitVec 32) (k : Fin 128) (h : x = BitVec.ofNat 32 k.val) : x.toNat = k.val := by
  rw [h, BitVec.toNat_ofNat]
  exact Nat.mod_eq_of_lt (by have := k.isLt; omega)

/-! ## The product's operand indices: out (p, q) at contraction index k reads lhs (p, k) and rhs (k, q) -/

private theorem lhs_axis_0 (i : S10000x30.Idx) (c : dot_S10000x128_S128x30_S10000x30_1_0_0_1_n_n.contr.Idx) :
    (dot_S10000x128_S128x30_S10000x30_1_0_0_1_n_n.lhsIdx i c 0).val = (i 0).val := by
  unfold DotDims.lhsIdx
  rw [dif_neg (show ¬(0 : Fin S10000x128.rank) ∈ dot_S10000x128_S128x30_S10000x30_1_0_0_1_n_n.lhsBatch by decide), dif_pos (show (0 : Fin S10000x128.rank) ∈ dot_S10000x128_S128x30_S10000x30_1_0_0_1_n_n.lhsNonContracting by decide)]
  rfl

private theorem lhs_axis_1 (i : S10000x30.Idx) (c : dot_S10000x128_S128x30_S10000x30_1_0_0_1_n_n.contr.Idx) :
    (dot_S10000x128_S128x30_S10000x30_1_0_0_1_n_n.lhsIdx i c 1).val = (c ⟨0, by decide⟩).val :=
  dot_S10000x128_S128x30_S10000x30_1_0_0_1_n_n.lhsIdx_val_of_single rfl i c

private theorem rhs_axis_0 (i : S10000x30.Idx) (c : dot_S10000x128_S128x30_S10000x30_1_0_0_1_n_n.contr.Idx) :
    (dot_S10000x128_S128x30_S10000x30_1_0_0_1_n_n.rhsIdx i c 0).val = (c ⟨0, by decide⟩).val :=
  dot_S10000x128_S128x30_S10000x30_1_0_0_1_n_n.rhsIdx_val_of_single rfl i c

private theorem rhs_axis_1 (i : S10000x30.Idx) (c : dot_S10000x128_S128x30_S10000x30_1_0_0_1_n_n.contr.Idx) :
    (dot_S10000x128_S128x30_S10000x30_1_0_0_1_n_n.rhsIdx i c 1).val = (i 1).val := by
  unfold DotDims.rhsIdx
  rw [dif_neg (show ¬(1 : Fin S128x30.rank) ∈ dot_S10000x128_S128x30_S10000x30_1_0_0_1_n_n.rhsBatch by decide), dif_pos (show (1 : Fin S128x30.rank) ∈ dot_S10000x128_S128x30_S10000x30_1_0_0_1_n_n.rhsNonContracting by decide)]
  rfl

private theorem lhs_idx (p : Fin 10000) (q : Fin 30) (k : Fin 128) :
    dot_S10000x128_S128x30_S10000x30_1_0_0_1_n_n.lhsIdx (ix2 p q) ((contrEquiv1 dot_S10000x128_S128x30_S10000x30_1_0_0_1_n_n 128 rfl rfl).symm k) = ix2 p k := by
  have hk := contrEquiv1_symm_val dot_S10000x128_S128x30_S10000x30_1_0_0_1_n_n 128 rfl rfl k
  exact funext fun a => Fin.ext (by
    match a with
    | ⟨0, _⟩ => exact lhs_axis_0 _ _
    | ⟨1, _⟩ => exact (lhs_axis_1 _ _).trans hk)

private theorem rhs_idx (p : Fin 10000) (q : Fin 30) (k : Fin 128) :
    dot_S10000x128_S128x30_S10000x30_1_0_0_1_n_n.rhsIdx (ix2 p q) ((contrEquiv1 dot_S10000x128_S128x30_S10000x30_1_0_0_1_n_n 128 rfl rfl).symm k) = ix2 k q := by
  have hk := contrEquiv1_symm_val dot_S10000x128_S128x30_S10000x30_1_0_0_1_n_n 128 rfl rfl k
  exact funext fun a => Fin.ext (by
    match a with
    | ⟨0, _⟩ => exact (rhs_axis_0 _ _).trans hk
    | ⟨1, _⟩ => exact rhs_axis_1 _ _)

/-! ## The one-hot row at an index -/

/-- A word compare at an index compares the elements. -/
private theorem cmpi_at {s : Shape} {w : Nat} (pr : CmpIPredicate) (x y : IVec s w) (i : s.Idx) :
    cmpi pr x y i = IntOp.cmpi pr (x i) (y i) := rfl

/-- Entry (p, k) of the one-hot row: the node's id, repeated along the row, compared with the column number k,
    the bit widened and converted. -/
private theorem onehot_entry (v0 : Vec Ideal S10000x1 .i32) (h1 : S10000x1.ShapeCasts S10000x1)
    (h2 : S10000x1.Broadcasts S10000x128) (h3 : S10000x128.Iotas .tc 32 [1]) (h4 : 1 < 32)
    (h5 : FTy.bits .bf16 < FTy.bits .f32) (p : Fin 10000) (k : Fin 128) :
    (truncf .bf16 (sitofp .f32 (extui 32 (cmpi .eq (broadcastTo S10000x128 (shapeCast S10000x1 v0 h1) h2)
      (iota .tc S10000x128 32 [1] h3)) h4)) h5 : FVec Ideal S10000x128 .bf16) (ix2 p k)
      = FloatOps.sitofp (F := Ideal) .f32 ((IntOp.cmpi .eq (v0 (ix2 p (0 : Fin 1)) : BitVec 32) (BitVec.ofNat 32 k.val)).setWidth 32) := by
  rw [truncf_apply, sitofp_apply, extui_apply, cmpi_at, Cert.LibColumn.broadcastTo_a1_ab_apply, shapeCast_self,
    iota_single_apply]

theorem k0_pay1_apply (v0 : Vec Ideal S10000x1 .i32) (v8 : Vec Ideal S128x30 .f32)
    (p : Fin 10000) (q : Fin 30) (hx : (v0 (ix2 p (0 : Fin 1)) : BitVec 32).toNat < 128) :
    k0_pay1 (F := Ideal) v0 v8 (ix2 p q) = v8 (ix2 (⟨(v0 (ix2 p (0 : Fin 1)) : BitVec 32).toNat, hx⟩ : Fin 128) q) := by
  unfold k0_pay1
  dsimp only
  show FloatOps.matmul dot_S10000x128_S128x30_S10000x30_1_0_0_1_n_n none _ _ (constant S10000x30 .f32 0x00000000#32) (ix2 p q) = _
  -- the entry is the sum over the 128 columns of the one-hot entry times the table's entry
  rw [Ideal.matmul_constant_zero_apply, ← Equiv.sum_comp (contrEquiv1 dot_S10000x128_S128x30_S10000x30_1_0_0_1_n_n 128 rfl rfl).symm]
  -- only the column whose number is the id contributes
  rw [Finset.sum_eq_single (⟨(v0 (ix2 p (0 : Fin 1)) : BitVec 32).toNat, hx⟩ : Fin 128)]
  · rw [lhs_idx, rhs_idx, onehot_entry, truncf_apply, onehot_of_eq _ _ (ofNat_toNat_self _).symm, one_mul]
  · intro k _ hne
    rw [lhs_idx, rhs_idx, onehot_entry, truncf_apply, onehot_of_ne _ _ (fun h => hne (Fin.ext (toNat_of_eq_ofNat _ k h).symm)), zero_mul]
  · intro h
    exact absurd (Finset.mem_univ _) h

end Cert.Pay

end
-- ==== Proof.Region0.lean ====
/-
  The embedding launch: the array it leaves holds, in each node's row, the table's row at the node's id.
-/
import proofs.«419415_j21852793602865_2_alg».proof.Proof.Gen.KernelIdeal.Frame
import proofs.«419415_j21852793602865_2_alg».proof.Proof.PayEmbed
import proofs.«419415_j21852793602865_2_alg».proof.Proof.Spec
import Idealize.ShloMosaic.Lib.Pipeline.Value
import Idealize.ShloMosaic.Lib.ValueIdx

set_option maxRecDepth 16384

noncomputable section

namespace Cert.KRegion

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- The body's store and its two loads sit at offset (0, 0) of their buffers. -/
private theorem embed_origin : (![0, 0] : Fin 2 → Nat) = fun _ => 0 := funext fun a => by fin_cases a <;> rfl

/-- The index maps over the grid: point t takes block t of the rows of the id column and of the output,
    and the whole table. -/
private theorem embed_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block: when the id in row p of the id block is the id in row r of the id column, that id
    is below the table's height, and the table block is the table, entry (p, q) of what the body stores is
    entry (r, q) of the embedding: the table's row at that id, column q. -/
private theorem embed_entry (x : Vec Ideal S100000x1 .i32) (emb : Vec Ideal S128x30 .f32)
    (x0 : Vec Ideal S10000x1 .i32) (x1 : Vec Ideal S128x30 .f32)
    (p : Fin 10000) (q : Fin 30) (r : Fin 100000)
    (h0 : x0 (ix2 p (0 : Fin 1)) = x (ix2 r (0 : Fin 1)))
    (h1 : ∀ s : Fin 128, x1 (ix2 s q) = emb (ix2 s q))
    (hx : (x (ix2 r (0 : Fin 1)) : BitVec 32).toNat < 128) :
    k0_pay1 (F := Ideal) x0 x1 (ix2 p q) = Cert.Spec.embedRows x emb (ix2 r q) := by
  have hx0 : (x0 (ix2 p (0 : Fin 1)) : BitVec 32).toNat < 128 := by rw [h0]; exact hx
  have hrow : (⟨(x0 (ix2 p (0 : Fin 1)) : BitVec 32).toNat, hx0⟩ : Fin 128)
      = ⟨(x (ix2 r (0 : Fin 1)) : BitVec 32).toNat % 128, Nat.mod_lt _ (by decide)⟩ :=
    Fin.ext (by
      show (x0 (ix2 p (0 : Fin 1)) : BitVec 32).toNat = (x (ix2 r (0 : Fin 1)) : BitVec 32).toNat % 128
      rw [h0, Nat.mod_eq_of_lt hx])
  refine (Cert.Pay.k0_pay1_apply x0 x1 p q hx0).trans ?_
  refine (congrArg (fun s : Fin 128 => x1 (ix2 s q)) hrow).trans ?_
  exact h1 _

/-- What point t writes back is block t of the embedding of the arrays the launch finds. -/
private theorem embed_flushed (c : Dev nD) (hx : ∀ i : S100000x1.Idx, (V c main_v0 i : BitVec 32).toNat < 128)
    (t : Fin cfg0.N) :
    (dat0 (F := Ideal) V c).flushed 2 t
      = ((cfg0.win 2).blk t).view.read (Elt Ideal) (Cert.Spec.embedRows (V c main_v0) (V c main_arg2)) := by
  show (cfg0.win 2).cut (grid0.coords t) ((dat0 (F := Ideal) V c).after 2 t) = _
  rw [after0_2]
  unfold out0_2
  rw [View.canon_unit_zero embed_origin]
  simp only [View.ld_unit_zero (S := S10000x1) embed_origin, View.ld_unit_zero (S := S128x30) embed_origin]
  obtain ⟨e00, e01, e10, e11, e20, e21⟩ := embed_index t
  have hN : cfg0.N = 10 := N_0
  have ht : t.val < 10 := hN ▸ t.isLt
  funext j
  obtain ⟨p, q, rfl⟩ : ∃ (p : Fin 10000) (q : Fin 30), j = ix2 p q := ⟨j 0, j 1, eq_ix2 j⟩
  have hr : 10000 * t.val + p.val < 100000 := by have := p.isLt; omega
  refine (embed_entry (V c main_v0) (V c main_arg2) (iblk0 V c 0 t) (iblk0 V c 1 t)
    p q ⟨10000 * t.val + p.val, hr⟩ ?_ ?_ (hx _)).trans ?_
  · show V c main_v0 (((cfg0.win 0).blk t).view.emb (ix2 p (0 : Fin 1)))
      = V c main_v0 (ix2 ⟨10000 * t.val + p.val, hr⟩ (0 : Fin 1))
    refine congrArg (V c main_v0) (funext fun a => Fin.ext ?_)
    match a with
    | ⟨0, _⟩ => show win0_0.index t (0 : Fin 2) * 10000 + 1 * p.val = 10000 * t.val + p.val; omega
    | ⟨1, _⟩ => show win0_0.index t (1 : Fin 2) * 1 + 1 * (0 : Fin 1).val = (0 : Fin 1).val; omega
  · intro s
    show V c main_arg2 (((cfg0.win 1).blk t).view.emb (ix2 s q)) = V c main_arg2 (ix2 s q)
    refine congrArg (V c main_arg2) (funext fun a => Fin.ext ?_)
    match a with
    | ⟨0, _⟩ => show win0_1.index t (0 : Fin 2) * 128 + 1 * s.val = s.val; omega
    | ⟨1, _⟩ => show win0_1.index t (1 : Fin 2) * 30 + 1 * q.val = q.val; omega
  · show Cert.Spec.embedRows (V c main_v0) (V c main_arg2) (ix2 ⟨10000 * t.val + p.val, hr⟩ q)
      = Cert.Spec.embedRows (V c main_v0) (V c main_arg2) (((cfg0.win 2).blk t).view.emb (ix2 p q))
    refine congrArg (Cert.Spec.embedRows (V c main_v0) (V c main_arg2)) (funext fun a => Fin.ext ?_)
    match a with
    | ⟨0, _⟩ => show 10000 * t.val + p.val = win0_2.index t (0 : Fin 2) * 10000 + 1 * p.val; omega
    | ⟨1, _⟩ => show q.val = win0_2.index t (1 : Fin 2) * 30 + 1 * q.val; omega

/-- An index of the output array is in point t's block iff each coordinate is in the block's range on its axis. -/
private theorem embed_mem_block (t : Fin cfg0.N) (i : S100000x30.Idx) :
    i ∈ ((cfg0.win 2).blk t).view.set ↔ ∀ a : Fin 2, win0_2.index t a * S10000x30.size a ≤ (i a).val
      ∧ (i a).val < win0_2.index t a * S10000x30.size a + S10000x30.size a := by
  show i ∈ ((View.whole main_v14).slice (win0_2.rect t)).set ↔ _
  rw [View.set_slice_whole, Rect.mem_set_unit]
  exact Iff.rfl

/-- Every row r of the output lies in the block of point r / 10000, which is written back. -/
private theorem embed_cover (i : S100000x30.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 30 := (i 1).isLt
  have hlt : (i 0).val / 10000 < cfg0.N := by rw [hN]; omega
  obtain ⟨-, -, -, -, e20, e21⟩ := embed_index ⟨(i 0).val / 10000, hlt⟩
  have e20' : win0_2.index ⟨(i 0).val / 10000, hlt⟩ (0 : Fin 2) = (i 0).val / 10000 := e20
  refine ⟨⟨(i 0).val / 10000, hlt⟩, flush0_2 _, ?_⟩
  rw [embed_mem_block]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    omega
  | ⟨1, _⟩ =>
    show win0_2.index ⟨(i 0).val / 10000, hlt⟩ (1 : Fin 2) * 30 ≤ (i 1).val
      ∧ (i 1).val < win0_2.index ⟨(i 0).val / 10000, hlt⟩ (1 : Fin 2) * 30 + 30
    omega

theorem arr0 (c : Dev nD) (hx : ∀ i : S100000x1.Idx, (V c main_v0 i : BitVec 32).toNat < 128) :
    (dat0 (F := Ideal) V c).arrAt 2 cfg0.N = Cert.Spec.embedRows (V c main_v0) (V c main_arg2) :=
  (dat0 (F := Ideal) V c).arrAt_eq_of_cover 2 (Cert.Spec.embedRows (V c main_v0) (V c main_arg2))
    (fun t _ => embed_flushed V c hx t) embed_cover

end Cert.KRegion

end
-- ==== Proof.Pay.lean ====
/-
  The linear kernels' bodies read at an index, on the extended reals: a row of the input against a row of the weights, plus the bias, clipped at zero in the hidden layers.
-/
import proofs.«419415_j21852793602865_2_alg».proof.Proof.Gen.KernelIdeal.Skeleton
import proofs.«419415_j21852793602865_2_alg».proof.Proof.Spec
import proofs.«419415_j21852793602865_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.Pay

open Idealize.ShloMosaic Idealize.ShloMosaic.ValueIdx Cert.KernelIdeal Cert.KernelIdeal.Gen

/-! ## The hidden layers' contraction: where each operand is read

Both operands are contracted over their axis 1; the left operand's axis 0 follows the result's row, the right operand's
axis 0 the result's column. -/

/-- The left operand's row is the result's row. -/
theorem lhsH_0 (i : S10000x30.Idx) (c : dot_S10000x30_S30x30_S10000x30_1_1_0_0_n_n.contr.Idx) :
    (dot_S10000x30_S30x30_S10000x30_1_1_0_0_n_n.lhsIdx i c 0).val = (i 0).val := by
  unfold DotDims.lhsIdx
  rw [dif_neg (show ¬(0 : Fin S10000x30.rank) ∈ dot_S10000x30_S30x30_S10000x30_1_1_0_0_n_n.lhsBatch by decide), dif_pos (show (0 : Fin S10000x30.rank) ∈ dot_S10000x30_S30x30_S10000x30_1_1_0_0_n_n.lhsNonContracting by decide)]
  rfl
/-- The left operand's column is the contraction position. -/
theorem lhsH_1 (i : S10000x30.Idx) (c : dot_S10000x30_S30x30_S10000x30_1_1_0_0_n_n.contr.Idx) :
    (dot_S10000x30_S30x30_S10000x30_1_1_0_0_n_n.lhsIdx i c 1).val = (c ⟨0, by decide⟩).val :=
  dot_S10000x30_S30x30_S10000x30_1_1_0_0_n_n.lhsIdx_val_of_single rfl i c
/-- The right operand's row is the result's column. -/
theorem rhsH_0 (i : S10000x30.Idx) (c : dot_S10000x30_S30x30_S10000x30_1_1_0_0_n_n.contr.Idx) :
    (dot_S10000x30_S30x30_S10000x30_1_1_0_0_n_n.rhsIdx i c 0).val = (i 1).val := by
  unfold DotDims.rhsIdx
  rw [dif_neg (show ¬(0 : Fin S30x30.rank) ∈ dot_S10000x30_S30x30_S10000x30_1_1_0_0_n_n.rhsBatch by decide), dif_pos (show (0 : Fin S30x30.rank) ∈ dot_S10000x30_S30x30_S10000x30_1_1_0_0_n_n.rhsNonContracting by decide)]
  rfl
/-- The right operand's column is the contraction position. -/
theorem rhsH_1 (i : S10000x30.Idx) (c : dot_S10000x30_S30x30_S10000x30_1_1_0_0_n_n.contr.Idx) :
    (dot_S10000x30_S30x30_S10000x30_1_1_0_0_n_n.rhsIdx i c 1).val = (c ⟨0, by decide⟩).val :=
  dot_S10000x30_S30x30_S10000x30_1_1_0_0_n_n.rhsIdx_val_of_single rfl i c

/-- The product into a zero accumulator at entry (p, q): row p of the left operand against row q of the right one. -/
theorem matmulH_apply (a : FVec Ideal S10000x30 .bf16) (b : FVec Ideal S30x30 .bf16) (p : Fin 10000) (q : Fin 30) :
    matmul dot_S10000x30_S30x30_S10000x30_1_1_0_0_n_n none a b (constant S10000x30 .f32 0x00000000#32) (ix2 p q)
      = ∑ k : Fin 30, a (ix2 p k) * b (ix2 q k) := by
  simp only [matmul]
  rw [Ideal.matmul_constant_zero_apply, ← Equiv.sum_comp (contrEquiv1 dot_S10000x30_S30x30_S10000x30_1_1_0_0_n_n 30 rfl rfl).symm]
  refine Finset.sum_congr rfl fun k _ => ?_
  have hk := contrEquiv1_symm_val dot_S10000x30_S30x30_S10000x30_1_1_0_0_n_n 30 rfl rfl k
  have el : dot_S10000x30_S30x30_S10000x30_1_1_0_0_n_n.lhsIdx (ix2 p q) ((contrEquiv1 dot_S10000x30_S30x30_S10000x30_1_1_0_0_n_n 30 rfl rfl).symm k) = ix2 p k := funext fun ax => Fin.ext (by
    match ax with
    | ⟨0, _⟩ => exact lhsH_0 _ _
    | ⟨1, _⟩ => exact (lhsH_1 _ _).trans hk)
  have er : dot_S10000x30_S30x30_S10000x30_1_1_0_0_n_n.rhsIdx (ix2 p q) ((contrEquiv1 dot_S10000x30_S30x30_S10000x30_1_1_0_0_n_n 30 rfl rfl).symm k) = ix2 q k := funext fun ax => Fin.ext (by
    match ax with
    | ⟨0, _⟩ => exact rhsH_0 _ _
    | ⟨1, _⟩ => exact (rhsH_1 _ _).trans hk)
  rw [el, er]

/-! ## The output layer's contraction: where each operand is read

Both operands are contracted over their axis 1; the left operand's axis 0 follows the result's row, the right operand's
axis 0 the result's column. -/

/-- The left operand's row is the result's row. -/
theorem lhsO_0 (i : S10000x5.Idx) (c : dot_S10000x30_S5x30_S10000x5_1_1_0_0_n_n.contr.Idx) :
    (dot_S10000x30_S5x30_S10000x5_1_1_0_0_n_n.lhsIdx i c 0).val = (i 0).val := by
  unfold DotDims.lhsIdx
  rw [dif_neg (show ¬(0 : Fin S10000x30.rank) ∈ dot_S10000x30_S5x30_S10000x5_1_1_0_0_n_n.lhsBatch by decide), dif_pos (show (0 : Fin S10000x30.rank) ∈ dot_S10000x30_S5x30_S10000x5_1_1_0_0_n_n.lhsNonContracting by decide)]
  rfl
/-- The left operand's column is the contraction position. -/
theorem lhsO_1 (i : S10000x5.Idx) (c : dot_S10000x30_S5x30_S10000x5_1_1_0_0_n_n.contr.Idx) :
    (dot_S10000x30_S5x30_S10000x5_1_1_0_0_n_n.lhsIdx i c 1).val = (c ⟨0, by decide⟩).val :=
  dot_S10000x30_S5x30_S10000x5_1_1_0_0_n_n.lhsIdx_val_of_single rfl i c
/-- The right operand's row is the result's column. -/
theorem rhsO_0 (i : S10000x5.Idx) (c : dot_S10000x30_S5x30_S10000x5_1_1_0_0_n_n.contr.Idx) :
    (dot_S10000x30_S5x30_S10000x5_1_1_0_0_n_n.rhsIdx i c 0).val = (i 1).val := by
  unfold DotDims.rhsIdx
  rw [dif_neg (show ¬(0 : Fin S5x30.rank) ∈ dot_S10000x30_S5x30_S10000x5_1_1_0_0_n_n.rhsBatch by decide), dif_pos (show (0 : Fin S5x30.rank) ∈ dot_S10000x30_S5x30_S10000x5_1_1_0_0_n_n.rhsNonContracting by decide)]
  rfl
/-- The right operand's column is the contraction position. -/
theorem rhsO_1 (i : S10000x5.Idx) (c : dot_S10000x30_S5x30_S10000x5_1_1_0_0_n_n.contr.Idx) :
    (dot_S10000x30_S5x30_S10000x5_1_1_0_0_n_n.rhsIdx i c 1).val = (c ⟨0, by decide⟩).val :=
  dot_S10000x30_S5x30_S10000x5_1_1_0_0_n_n.rhsIdx_val_of_single rfl i c

/-- The product into a zero accumulator at entry (p, q): row p of the left operand against row q of the right one. -/
theorem matmulO_apply (a : FVec Ideal S10000x30 .bf16) (b : FVec Ideal S5x30 .bf16) (p : Fin 10000) (q : Fin 5) :
    matmul dot_S10000x30_S5x30_S10000x5_1_1_0_0_n_n none a b (constant S10000x5 .f32 0x00000000#32) (ix2 p q)
      = ∑ k : Fin 30, a (ix2 p k) * b (ix2 q k) := by
  simp only [matmul]
  rw [Ideal.matmul_constant_zero_apply, ← Equiv.sum_comp (contrEquiv1 dot_S10000x30_S5x30_S10000x5_1_1_0_0_n_n 30 rfl rfl).symm]
  refine Finset.sum_congr rfl fun k _ => ?_
  have hk := contrEquiv1_symm_val dot_S10000x30_S5x30_S10000x5_1_1_0_0_n_n 30 rfl rfl k
  have el : dot_S10000x30_S5x30_S10000x5_1_1_0_0_n_n.lhsIdx (ix2 p q) ((contrEquiv1 dot_S10000x30_S5x30_S10000x5_1_1_0_0_n_n 30 rfl rfl).symm k) = ix2 p k := funext fun ax => Fin.ext (by
    match ax with
    | ⟨0, _⟩ => exact lhsO_0 _ _
    | ⟨1, _⟩ => exact (lhsO_1 _ _).trans hk)
  have er : dot_S10000x30_S5x30_S10000x5_1_1_0_0_n_n.rhsIdx (ix2 p q) ((contrEquiv1 dot_S10000x30_S5x30_S10000x5_1_1_0_0_n_n 30 rfl rfl).symm k) = ix2 q k := funext fun ax => Fin.ext (by
    match ax with
    | ⟨0, _⟩ => exact rhsO_0 _ _
    | ⟨1, _⟩ => exact (rhsO_1 _ _).trans hk)
  rw [el, er]

/-! ## The bodies at an entry

The format changes are the identity on the extended reals, the casts are to the same shape, the bias row is read at the
entry's column, and the zero word is the real zero. -/

/-- First hidden layer: the clipped affine form of row p against weight row q. -/
theorem k1_pay1_apply (v0 : Vec Ideal S10000x30 .f32) (v3 : Vec Ideal S30x30 .f32) (v6 : Vec Ideal S1x30 .f32)
    (p : Fin 10000) (q : Fin 30) :
    k1_pay1 (F := Ideal) v0 v3 v6 (ix2 p q)
      = max ((∑ k : Fin 30, v0 (ix2 p k) * v3 (ix2 q k)) + v6 (ix2 (0 : Fin 1) q)) 0 := by
  unfold k1_pay1
  rw [maximumf_apply, addf_apply, broadcast_apply, matmulH_apply, shapeCast_self, shapeCast_self, broadcastTo_1b_ab_apply]
  simp only [truncf_apply]
  exact congrArg (max _) Ideal.ofBits_zero_f32

/-- Second hidden layer: the same body. -/
theorem k2_pay1_apply (v0 : Vec Ideal S10000x30 .f32) (v3 : Vec Ideal S30x30 .f32) (v6 : Vec Ideal S1x30 .f32)
    (p : Fin 10000) (q : Fin 30) :
    k2_pay1 (F := Ideal) v0 v3 v6 (ix2 p q)
      = max ((∑ k : Fin 30, v0 (ix2 p k) * v3 (ix2 q k)) + v6 (ix2 (0 : Fin 1) q)) 0 := by
  unfold k2_pay1
  rw [maximumf_apply, addf_apply, broadcast_apply, matmulH_apply, shapeCast_self, shapeCast_self, broadcastTo_1b_ab_apply]
  simp only [truncf_apply]
  exact congrArg (max _) Ideal.ofBits_zero_f32

/-- Third hidden layer: the same body. -/
theorem k3_pay1_apply (v0 : Vec Ideal S10000x30 .f32) (v3 : Vec Ideal S30x30 .f32) (v6 : Vec Ideal S1x30 .f32)
    (p : Fin 10000) (q : Fin 30) :
    k3_pay1 (F := Ideal) v0 v3 v6 (ix2 p q)
      = max ((∑ k : Fin 30, v0 (ix2 p k) * v3 (ix2 q k)) + v6 (ix2 (0 : Fin 1) q)) 0 := by
  unfold k3_pay1
  rw [maximumf_apply, addf_apply, broadcast_apply, matmulH_apply, shapeCast_self, shapeCast_self, broadcastTo_1b_ab_apply]
  simp only [truncf_apply]
  exact congrArg (max _) Ideal.ofBits_zero_f32

/-- Output layer: the affine form, not clipped. -/
theorem k4_pay1_apply (v0 : Vec Ideal S10000x30 .f32) (v3 : Vec Ideal S5x30 .f32) (v6 : Vec Ideal S1x5 .f32)
    (p : Fin 10000) (q : Fin 5) :
    k4_pay1 (F := Ideal) v0 v3 v6 (ix2 p q)
      = (∑ k : Fin 30, v0 (ix2 p k) * v3 (ix2 q k)) + v6 (ix2 (0 : Fin 1) q) := by
  unfold k4_pay1
  rw [addf_apply, matmulO_apply, shapeCast_self, shapeCast_self, broadcastTo_1b_ab_apply]
  simp only [truncf_apply]

end Cert.Pay

end
-- ==== Proof.Region1.lean ====
/-
  The first hidden layer's launch: the array it leaves is the layer map of the arrays it finds.
-/
import proofs.«419415_j21852793602865_2_alg».proof.Proof.Gen.KernelIdeal.Frame
import proofs.«419415_j21852793602865_2_alg».proof.Proof.Pay
import proofs.«419415_j21852793602865_2_alg».proof.Proof.Spec
import Idealize.ShloMosaic.Lib.Pipeline.Value
import Idealize.ShloMosaic.Lib.ValueIdx

set_option maxRecDepth 16384

noncomputable section

namespace Cert.KRegion

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- The whole-block rectangle starts at the origin. -/
private theorem origin1 : (![0, 0] : Fin 2 → Nat) = fun _ => 0 := funext fun a => by fin_cases a <;> rfl

/-- Where each window's block sits at grid point t: the feature rows and the output rows move together, block t of
    ten along the rows and the one block along the columns; the weights and the bias are their whole arrays. -/
private theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a row block. If row p of the block x0 is row i 0 of the feature matrix a, row q of x1 is row i 1 of the
    weights w, and entry q of x2 is entry i 1 of the bias b, then the body's value at (p, q) — the row of x0 against the
    row of x1, plus the bias, clipped at zero — is the layer map of a, w, b at i. -/
private theorem entry1 (a : S100000x30.Idx → EReal) (w : S30x30.Idx → EReal) (b : S1x30.Idx → EReal)
    (x0 : Vec Ideal S10000x30 .f32) (x1 : Vec Ideal S30x30 .f32) (x2 : Vec Ideal S1x30 .f32)
    (i : S100000x30.Idx) (p : Fin 10000) (q : Fin 30)
    (h0 : ∀ k : Fin 30, x0 (ix2 p k) = a (ix2 (i 0) k))
    (h1 : ∀ k : Fin 30, x1 (ix2 q k) = w (ix2 (i 1) k))
    (h2 : x2 (ix2 (0 : Fin 1) q) = b (ix2 (0 : Fin 1) (i 1))) :
    k1_pay1 (F := Ideal) x0 x1 x2 (ix2 p q) = Cert.Spec.layer a w b i := by
  rw [Cert.Pay.k1_pay1_apply]
  unfold Cert.Spec.layer
  simp only [h0, h1, h2]

/-- What grid point t writes back is block t of the layer map of the arrays the launch finds: entry (p, q) of the block
    is row 10000·t + p of the features against row q of the weights, plus the bias at q, clipped at zero, and
    (10000·t + p, q) is where that entry sits in the output array. -/
private theorem block1 (c : Dev nD) (t : Fin cfg1.N) :
    (dat1 (F := Ideal) V c).flushed 3 t
      = ((cfg1.win 3).blk t).view.read (Elt Ideal) (Cert.Spec.layer (V c main_v34) (V c main_arg3) (V c main_v35)) := by
  show (cfg1.win 3).cut (grid1.coords t) ((dat1 V c).after 3 t) = _
  rw [after1_3]
  unfold out1_3
  rw [View.canon_unit_zero origin1]
  simp only [View.ld_unit_zero (S := S10000x30) origin1, View.ld_unit_zero (S := S30x30) origin1,
    View.ld_unit_zero (S := S1x30) origin1]
  funext j
  obtain ⟨p, q, rfl⟩ : ∃ (p : Fin 10000) (q : Fin 30), j = ix2 p q := ⟨j 0, j 1, eq_ix2 j⟩
  obtain ⟨e00, e01, e10, e11, e20, e21, e30, e31⟩ := blockIndex1 t
  show k1_pay1 (F := Ideal) (iblk1 V c 0 t) (iblk1 V c 1 t) (iblk1 V c 2 t) (ix2 p q)
    = Cert.Spec.layer (V c main_v34) (V c main_arg3) (V c main_v35) (((cfg1.win 3).blk t).view.emb (ix2 p q))
  refine entry1 _ _ _ _ _ _ _ p q (fun k => ?_) (fun k => ?_) ?_
  · -- row p of the feature block is row 10000·t + p of the feature matrix
    show V c main_v34 (((cfg1.win 0).blk t).view.emb (ix2 p k))
      = V c main_v34 (ix2 (((cfg1.win 3).blk t).view.emb (ix2 p q) 0) k)
    refine congrArg _ (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 30 + 1 * k.val = k.val; omega
  · -- row q of the weight block is row q of the weights
    show V c main_arg3 (((cfg1.win 1).blk t).view.emb (ix2 q k))
      = V c main_arg3 (ix2 (((cfg1.win 3).blk t).view.emb (ix2 p q) 1) k)
    refine congrArg _ (funext fun a => Fin.ext ?_)
    match a with
    | ⟨0, _⟩ => show win1_1.index t (0 : Fin 2) * 30 + 1 * q.val = win1_3.index t (1 : Fin 2) * 30 + 1 * q.val; omega
    | ⟨1, _⟩ => show win1_1.index t (1 : Fin 2) * 30 + 1 * k.val = k.val; omega
  · -- entry q of the bias block is entry q of the bias
    show V c main_v35 (((cfg1.win 2).blk t).view.emb (ix2 (0 : Fin 1) q))
      = V c main_v35 (ix2 (0 : Fin 1) (((cfg1.win 3).blk t).view.emb (ix2 p q) 1))
    refine congrArg _ (funext fun a => Fin.ext ?_)
    match a with
    | ⟨0, _⟩ => show win1_2.index t (0 : Fin 2) * 1 + 1 * 0 = 0; omega
    | ⟨1, _⟩ => show win1_2.index t (1 : Fin 2) * 30 + 1 * q.val = win1_3.index t (1 : Fin 2) * 30 + 1 * q.val; omega

/-- An index of the output array is in point t's block iff each coordinate is in the block's range on its axis. -/
private theorem memBlock1 (t : Fin cfg1.N) (i : S100000x30.Idx) :
    i ∈ ((cfg1.win 3).blk t).view.set
      ↔ ∀ a : Fin 2, win1_3.index t a * S10000x30.size a ≤ (i a).val
          ∧ (i a).val < win1_3.index t a * S10000x30.size a + S10000x30.size a := by
  show i ∈ ((View.whole main_v36).slice (win1_3.rect t)).set ↔ _
  rw [View.set_slice_whole, Rect.mem_set_unit]
  exact Iff.rfl

/-- The ten row blocks fill the output array: row r lies in block r / 10000, and every column in the one column block. -/
private theorem cover1 (i : S100000x30.Idx) :
    ∃ t : Fin cfg1.N, (cfg1.win 3).flush t = true ∧ i ∈ ((cfg1.win 3).blk t).view.set := by
  have hi0 : (i 0).val < 100000 := (i 0).isLt
  have hi1 : (i 1).val < 30 := (i 1).isLt
  have hN : cfg1.N = 10 := N_1
  let t : Fin cfg1.N := ⟨(i 0).val / 10000, by rw [hN]; omega⟩
  obtain ⟨-, -, -, -, -, -, e30, e31⟩ := blockIndex1 t
  have ht : t.val = (i 0).val / 10000 := rfl
  refine ⟨t, flush1_3 t, ?_⟩
  rw [memBlock1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 30 ≤ (i 1).val ∧ (i 1).val < win1_3.index t (1 : Fin 2) * 30 + 30; omega

theorem arr1 (c : Dev nD) :
    (dat1 (F := Ideal) V c).arrAt 3 cfg1.N = Cert.Spec.layer (V c main_v34) (V c main_arg3) (V c main_v35) :=
  (dat1 (F := Ideal) V c).arrAt_eq_of_cover 3 (Cert.Spec.layer (V c main_v34) (V c main_arg3) (V c main_v35))
    (fun t _ => block1 V c t) cover1

end Cert.KRegion

end
-- ==== Proof.Region2.lean ====
/-
  The second hidden layer's launch: the array it leaves is the layer map of the arrays it finds.
-/
import proofs.«419415_j21852793602865_2_alg».proof.Proof.Gen.KernelIdeal.Frame
import proofs.«419415_j21852793602865_2_alg».proof.Proof.Pay
import proofs.«419415_j21852793602865_2_alg».proof.Proof.Spec
import Idealize.ShloMosaic.Lib.Pipeline.Value
import Idealize.ShloMosaic.Lib.ValueIdx

set_option maxRecDepth 16384

noncomputable section

namespace Cert.KRegion

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- The whole-block rectangle starts at the origin. -/
private theorem origin2 : (![0, 0] : Fin 2 → Nat) = fun _ => 0 := funext fun a => by fin_cases a <;> rfl

/-- Where each window's block sits at grid point t: the feature rows and the output rows move together, block t of
    ten along the rows and the one block along the columns; the weights and the bias are their whole arrays. -/
private theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of a row block. If row p of the block x0 is row i 0 of the feature matrix a, row q of x1 is row i 1 of the
    weights w, and entry q of x2 is entry i 1 of the bias b, then the body's value at (p, q) — the row of x0 against the
    row of x1, plus the bias, clipped at zero — is the layer map of a, w, b at i. -/
private theorem entry2 (a : S100000x30.Idx → EReal) (w : S30x30.Idx → EReal) (b : S1x30.Idx → EReal)
    (x0 : Vec Ideal S10000x30 .f32) (x1 : Vec Ideal S30x30 .f32) (x2 : Vec Ideal S1x30 .f32)
    (i : S100000x30.Idx) (p : Fin 10000) (q : Fin 30)
    (h0 : ∀ k : Fin 30, x0 (ix2 p k) = a (ix2 (i 0) k))
    (h1 : ∀ k : Fin 30, x1 (ix2 q k) = w (ix2 (i 1) k))
    (h2 : x2 (ix2 (0 : Fin 1) q) = b (ix2 (0 : Fin 1) (i 1))) :
    k2_pay1 (F := Ideal) x0 x1 x2 (ix2 p q) = Cert.Spec.layer a w b i := by
  rw [Cert.Pay.k2_pay1_apply]
  unfold Cert.Spec.layer
  simp only [h0, h1, h2]

/-- What grid point t writes back is block t of the layer map of the arrays the launch finds: entry (p, q) of the block
    is row 10000·t + p of the features against row q of the weights, plus the bias at q, clipped at zero, and
    (10000·t + p, q) is where that entry sits in the output array. -/
private theorem block2 (c : Dev nD) (t : Fin cfg2.N) :
    (dat2 (F := Ideal) V c).flushed 3 t
      = ((cfg2.win 3).blk t).view.read (Elt Ideal) (Cert.Spec.layer (V c main_v56) (V c main_arg5) (V c main_v57)) := by
  show (cfg2.win 3).cut (grid2.coords t) ((dat2 V c).after 3 t) = _
  rw [after2_3]
  unfold out2_3
  rw [View.canon_unit_zero origin2]
  simp only [View.ld_unit_zero (S := S10000x30) origin2, View.ld_unit_zero (S := S30x30) origin2,
    View.ld_unit_zero (S := S1x30) origin2]
  funext j
  obtain ⟨p, q, rfl⟩ : ∃ (p : Fin 10000) (q : Fin 30), j = ix2 p q := ⟨j 0, j 1, eq_ix2 j⟩
  obtain ⟨e00, e01, e10, e11, e20, e21, e30, e31⟩ := blockIndex2 t
  show k2_pay1 (F := Ideal) (iblk2 V c 0 t) (iblk2 V c 1 t) (iblk2 V c 2 t) (ix2 p q)
    = Cert.Spec.layer (V c main_v56) (V c main_arg5) (V c main_v57) (((cfg2.win 3).blk t).view.emb (ix2 p q))
  refine entry2 _ _ _ _ _ _ _ p q (fun k => ?_) (fun k => ?_) ?_
  · -- row p of the feature block is row 10000·t + p of the feature matrix
    show V c main_v56 (((cfg2.win 0).blk t).view.emb (ix2 p k))
      = V c main_v56 (ix2 (((cfg2.win 3).blk t).view.emb (ix2 p q) 0) k)
    refine congrArg _ (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 30 + 1 * k.val = k.val; omega
  · -- row q of the weight block is row q of the weights
    show V c main_arg5 (((cfg2.win 1).blk t).view.emb (ix2 q k))
      = V c main_arg5 (ix2 (((cfg2.win 3).blk t).view.emb (ix2 p q) 1) k)
    refine congrArg _ (funext fun a => Fin.ext ?_)
    match a with
    | ⟨0, _⟩ => show win2_1.index t (0 : Fin 2) * 30 + 1 * q.val = win2_3.index t (1 : Fin 2) * 30 + 1 * q.val; omega
    | ⟨1, _⟩ => show win2_1.index t (1 : Fin 2) * 30 + 1 * k.val = k.val; omega
  · -- entry q of the bias block is entry q of the bias
    show V c main_v57 (((cfg2.win 2).blk t).view.emb (ix2 (0 : Fin 1) q))
      = V c main_v57 (ix2 (0 : Fin 1) (((cfg2.win 3).blk t).view.emb (ix2 p q) 1))
    refine congrArg _ (funext fun a => Fin.ext ?_)
    match a with
    | ⟨0, _⟩ => show win2_2.index t (0 : Fin 2) * 1 + 1 * 0 = 0; omega
    | ⟨1, _⟩ => show win2_2.index t (1 : Fin 2) * 30 + 1 * q.val = win2_3.index t (1 : Fin 2) * 30 + 1 * q.val; omega

/-- An index of the output array is in point t's block iff each coordinate is in the block's range on its axis. -/
private theorem memBlock2 (t : Fin cfg2.N) (i : S100000x30.Idx) :
    i ∈ ((cfg2.win 3).blk t).view.set
      ↔ ∀ a : Fin 2, win2_3.index t a * S10000x30.size a ≤ (i a).val
          ∧ (i a).val < win2_3.index t a * S10000x30.size a + S10000x30.size a := by
  show i ∈ ((View.whole main_v58).slice (win2_3.rect t)).set ↔ _
  rw [View.set_slice_whole, Rect.mem_set_unit]
  exact Iff.rfl

/-- The ten row blocks fill the output array: row r lies in block r / 10000, and every column in the one column block. -/
private theorem cover2 (i : S100000x30.Idx) :
    ∃ t : Fin cfg2.N, (cfg2.win 3).flush t = true ∧ i ∈ ((cfg2.win 3).blk t).view.set := by
  have hi0 : (i 0).val < 100000 := (i 0).isLt
  have hi1 : (i 1).val < 30 := (i 1).isLt
  have hN : cfg2.N = 10 := N_2
  let t : Fin cfg2.N := ⟨(i 0).val / 10000, by rw [hN]; omega⟩
  obtain ⟨-, -, -, -, -, -, e30, e31⟩ := blockIndex2 t
  have ht : t.val = (i 0).val / 10000 := rfl
  refine ⟨t, flush2_3 t, ?_⟩
  rw [memBlock2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 30 ≤ (i 1).val ∧ (i 1).val < win2_3.index t (1 : Fin 2) * 30 + 30; omega

theorem arr2 (c : Dev nD) :
    (dat2 (F := Ideal) V c).arrAt 3 cfg2.N = Cert.Spec.layer (V c main_v56) (V c main_arg5) (V c main_v57) :=
  (dat2 (F := Ideal) V c).arrAt_eq_of_cover 3 (Cert.Spec.layer (V c main_v56) (V c main_arg5) (V c main_v57))
    (fun t _ => block2 V c t) cover2

end Cert.KRegion

end
-- ==== Proof.Region3.lean ====
/-
  The third hidden layer's launch: the array it leaves is the layer map of the arrays it finds.
-/
import proofs.«419415_j21852793602865_2_alg».proof.Proof.Gen.KernelIdeal.Frame
import proofs.«419415_j21852793602865_2_alg».proof.Proof.Pay
import proofs.«419415_j21852793602865_2_alg».proof.Proof.Spec
import Idealize.ShloMosaic.Lib.Pipeline.Value
import Idealize.ShloMosaic.Lib.ValueIdx

set_option maxRecDepth 16384

noncomputable section

namespace Cert.KRegion

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- The whole-block rectangle starts at the origin. -/
private theorem origin3 : (![0, 0] : Fin 2 → Nat) = fun _ => 0 := funext fun a => by fin_cases a <;> rfl

/-- Where each window's block sits at grid point t: the feature rows and the output rows move together, block t of
    ten along the rows and the one block along the columns; the weights and the bias are their whole arrays. -/
private theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of a row block. If row p of the block x0 is row i 0 of the feature matrix a, row q of x1 is row i 1 of the
    weights w, and entry q of x2 is entry i 1 of the bias b, then the body's value at (p, q) — the row of x0 against the
    row of x1, plus the bias, clipped at zero — is the layer map of a, w, b at i. -/
private theorem entry3 (a : S100000x30.Idx → EReal) (w : S30x30.Idx → EReal) (b : S1x30.Idx → EReal)
    (x0 : Vec Ideal S10000x30 .f32) (x1 : Vec Ideal S30x30 .f32) (x2 : Vec Ideal S1x30 .f32)
    (i : S100000x30.Idx) (p : Fin 10000) (q : Fin 30)
    (h0 : ∀ k : Fin 30, x0 (ix2 p k) = a (ix2 (i 0) k))
    (h1 : ∀ k : Fin 30, x1 (ix2 q k) = w (ix2 (i 1) k))
    (h2 : x2 (ix2 (0 : Fin 1) q) = b (ix2 (0 : Fin 1) (i 1))) :
    k3_pay1 (F := Ideal) x0 x1 x2 (ix2 p q) = Cert.Spec.layer a w b i := by
  rw [Cert.Pay.k3_pay1_apply]
  unfold Cert.Spec.layer
  simp only [h0, h1, h2]

/-- What grid point t writes back is block t of the layer map of the arrays the launch finds: entry (p, q) of the block
    is row 10000·t + p of the features against row q of the weights, plus the bias at q, clipped at zero, and
    (10000·t + p, q) is where that entry sits in the output array. -/
private theorem block3 (c : Dev nD) (t : Fin cfg3.N) :
    (dat3 (F := Ideal) V c).flushed 3 t
      = ((cfg3.win 3).blk t).view.read (Elt Ideal) (Cert.Spec.layer (V c main_v78) (V c main_arg7) (V c main_v79)) := by
  show (cfg3.win 3).cut (grid3.coords t) ((dat3 V c).after 3 t) = _
  rw [after3_3]
  unfold out3_3
  rw [View.canon_unit_zero origin3]
  simp only [View.ld_unit_zero (S := S10000x30) origin3, View.ld_unit_zero (S := S30x30) origin3,
    View.ld_unit_zero (S := S1x30) origin3]
  funext j
  obtain ⟨p, q, rfl⟩ : ∃ (p : Fin 10000) (q : Fin 30), j = ix2 p q := ⟨j 0, j 1, eq_ix2 j⟩
  obtain ⟨e00, e01, e10, e11, e20, e21, e30, e31⟩ := blockIndex3 t
  show k3_pay1 (F := Ideal) (iblk3 V c 0 t) (iblk3 V c 1 t) (iblk3 V c 2 t) (ix2 p q)
    = Cert.Spec.layer (V c main_v78) (V c main_arg7) (V c main_v79) (((cfg3.win 3).blk t).view.emb (ix2 p q))
  refine entry3 _ _ _ _ _ _ _ p q (fun k => ?_) (fun k => ?_) ?_
  · -- row p of the feature block is row 10000·t + p of the feature matrix
    show V c main_v78 (((cfg3.win 0).blk t).view.emb (ix2 p k))
      = V c main_v78 (ix2 (((cfg3.win 3).blk t).view.emb (ix2 p q) 0) k)
    refine congrArg _ (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 30 + 1 * k.val = k.val; omega
  · -- row q of the weight block is row q of the weights
    show V c main_arg7 (((cfg3.win 1).blk t).view.emb (ix2 q k))
      = V c main_arg7 (ix2 (((cfg3.win 3).blk t).view.emb (ix2 p q) 1) k)
    refine congrArg _ (funext fun a => Fin.ext ?_)
    match a with
    | ⟨0, _⟩ => show win3_1.index t (0 : Fin 2) * 30 + 1 * q.val = win3_3.index t (1 : Fin 2) * 30 + 1 * q.val; omega
    | ⟨1, _⟩ => show win3_1.index t (1 : Fin 2) * 30 + 1 * k.val = k.val; omega
  · -- entry q of the bias block is entry q of the bias
    show V c main_v79 (((cfg3.win 2).blk t).view.emb (ix2 (0 : Fin 1) q))
      = V c main_v79 (ix2 (0 : Fin 1) (((cfg3.win 3).blk t).view.emb (ix2 p q) 1))
    refine congrArg _ (funext fun a => Fin.ext ?_)
    match a with
    | ⟨0, _⟩ => show win3_2.index t (0 : Fin 2) * 1 + 1 * 0 = 0; omega
    | ⟨1, _⟩ => show win3_2.index t (1 : Fin 2) * 30 + 1 * q.val = win3_3.index t (1 : Fin 2) * 30 + 1 * q.val; omega

/-- An index of the output array is in point t's block iff each coordinate is in the block's range on its axis. -/
private theorem memBlock3 (t : Fin cfg3.N) (i : S100000x30.Idx) :
    i ∈ ((cfg3.win 3).blk t).view.set
      ↔ ∀ a : Fin 2, win3_3.index t a * S10000x30.size a ≤ (i a).val
          ∧ (i a).val < win3_3.index t a * S10000x30.size a + S10000x30.size a := by
  show i ∈ ((View.whole main_v80).slice (win3_3.rect t)).set ↔ _
  rw [View.set_slice_whole, Rect.mem_set_unit]
  exact Iff.rfl

/-- The ten row blocks fill the output array: row r lies in block r / 10000, and every column in the one column block. -/
private theorem cover3 (i : S100000x30.Idx) :
    ∃ t : Fin cfg3.N, (cfg3.win 3).flush t = true ∧ i ∈ ((cfg3.win 3).blk t).view.set := by
  have hi0 : (i 0).val < 100000 := (i 0).isLt
  have hi1 : (i 1).val < 30 := (i 1).isLt
  have hN : cfg3.N = 10 := N_3
  let t : Fin cfg3.N := ⟨(i 0).val / 10000, by rw [hN]; omega⟩
  obtain ⟨-, -, -, -, -, -, e30, e31⟩ := blockIndex3 t
  have ht : t.val = (i 0).val / 10000 := rfl
  refine ⟨t, flush3_3 t, ?_⟩
  rw [memBlock3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 30 ≤ (i 1).val ∧ (i 1).val < win3_3.index t (1 : Fin 2) * 30 + 30; omega

theorem arr3 (c : Dev nD) :
    (dat3 (F := Ideal) V c).arrAt 3 cfg3.N = Cert.Spec.layer (V c main_v78) (V c main_arg7) (V c main_v79) :=
  (dat3 (F := Ideal) V c).arrAt_eq_of_cover 3 (Cert.Spec.layer (V c main_v78) (V c main_arg7) (V c main_v79))
    (fun t _ => block3 V c t) cover3

end Cert.KRegion

end
-- ==== Proof.Region4.lean ====
/-
  The output head's launch: the array it leaves is the head map of the arrays it finds.
-/
import proofs.«419415_j21852793602865_2_alg».proof.Proof.Gen.KernelIdeal.Frame
import proofs.«419415_j21852793602865_2_alg».proof.Proof.Pay
import proofs.«419415_j21852793602865_2_alg».proof.Proof.Spec
import Idealize.ShloMosaic.Lib.Pipeline.Value
import Idealize.ShloMosaic.Lib.ValueIdx

set_option maxRecDepth 16384

noncomputable section

namespace Cert.KRegion

open Idealize.ShloMosaic Idealize.ShloMosaic.TcCoe Idealize.ShloMosaic.ValueIdx Idealize.ShloMosaic.Pipeline Cert.KernelIdeal Cert.KernelIdeal.Gen

variable (V : (c : Dev nD) → (b : Ref sig .tc) → Buf (Elt Ideal) ((c : Thread nD τ).loc b))

/-- The body's store and its three loads sit at offset (0, 0) of their buffers. -/
private theorem head_origin : (![0, 0] : Fin 2 → Nat) = fun _ => 0 := funext fun a => by fin_cases a <;> rfl

/-- The index maps over the grid: point t takes block t of the rows of the features and of the output,
    and the whole of the weights and of the bias. -/
private theorem head_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- One entry of a block: when row p of the feature block is row r of the feature array, and the weight
    and bias blocks are the weight and bias arrays, entry (p, q) of what the body stores is entry (r, q)
    of the head map: row r of the features against row q of the weights, plus the bias at q. -/
private theorem head_entry (a : Vec Ideal S100000x30 .f32) (w : Vec Ideal S5x30 .f32) (b : Vec Ideal S1x5 .f32)
    (x0 : Vec Ideal S10000x30 .f32) (x1 : Vec Ideal S5x30 .f32) (x2 : Vec Ideal S1x5 .f32)
    (p : Fin 10000) (q : Fin 5) (r : Fin 100000)
    (h0 : ∀ k : Fin 30, x0 (ix2 p k) = a (ix2 r k))
    (h1 : ∀ k : Fin 30, x1 (ix2 q k) = w (ix2 q k))
    (h2 : x2 (ix2 (0 : Fin 1) q) = b (ix2 (0 : Fin 1) q)) :
    k4_pay1 (F := Ideal) x0 x1 x2 (ix2 p q) = Cert.Spec.head a w b (ix2 r q) := by
  rw [Cert.Pay.k4_pay1_apply]
  show _ = (∑ k : Fin 30, a (ix2 r k) * w (ix2 q k)) + b (ix2 (0 : Fin 1) q)
  rw [h2]
  congr 1
  exact Finset.sum_congr rfl fun k _ => by rw [h0 k, h1 k]

/-- What point t writes back is block t of the head map of the arrays the launch finds. -/
private theorem head_flushed (c : Dev nD) (t : Fin cfg4.N) :
    (dat4 (F := Ideal) V c).flushed 3 t
      = ((cfg4.win 3).blk t).view.read (Elt Ideal) (Cert.Spec.head (V c main_v80) (V c main_arg9) (V c main_v81)) := by
  show (cfg4.win 3).cut (grid4.coords t) ((dat4 (F := Ideal) V c).after 3 t) = _
  rw [after4_3]
  unfold out4_3
  rw [View.canon_unit_zero head_origin]
  simp only [View.ld_unit_zero (S := S10000x30) head_origin, View.ld_unit_zero (S := S5x30) head_origin,
    View.ld_unit_zero (S := S1x5) head_origin]
  obtain ⟨e00, e01, e10, e11, e20, e21, e30, e31⟩ := head_index t
  have hN : cfg4.N = 10 := N_4
  have ht : t.val < 10 := hN ▸ t.isLt
  funext j
  obtain ⟨p, q, rfl⟩ : ∃ (p : Fin 10000) (q : Fin 5), j = ix2 p q := ⟨j 0, j 1, eq_ix2 j⟩
  have hr : 10000 * t.val + p.val < 100000 := by have := p.isLt; omega
  refine (head_entry (V c main_v80) (V c main_arg9) (V c main_v81) (iblk4 V c 0 t) (iblk4 V c 1 t) (iblk4 V c 2 t)
    p q ⟨10000 * t.val + p.val, hr⟩ ?_ ?_ ?_).trans ?_
  · intro k
    show V c main_v80 (((cfg4.win 0).blk t).view.emb (ix2 p k)) = V c main_v80 (ix2 ⟨10000 * t.val + p.val, hr⟩ k)
    refine congrArg (V c main_v80) (funext fun a => Fin.ext ?_)
    match a with
    | ⟨0, _⟩ => show win4_0.index t (0 : Fin 2) * 10000 + 1 * p.val = 10000 * t.val + p.val; omega
    | ⟨1, _⟩ => show win4_0.index t (1 : Fin 2) * 30 + 1 * k.val = k.val; omega
  · intro k
    show V c main_arg9 (((cfg4.win 1).blk t).view.emb (ix2 q k)) = V c main_arg9 (ix2 q k)
    refine congrArg (V c main_arg9) (funext fun a => Fin.ext ?_)
    match a with
    | ⟨0, _⟩ => show win4_1.index t (0 : Fin 2) * 5 + 1 * q.val = q.val; omega
    | ⟨1, _⟩ => show win4_1.index t (1 : Fin 2) * 30 + 1 * k.val = k.val; omega
  · show V c main_v81 (((cfg4.win 2).blk t).view.emb (ix2 (0 : Fin 1) q)) = V c main_v81 (ix2 (0 : Fin 1) q)
    refine congrArg (V c main_v81) (funext fun a => Fin.ext ?_)
    match a with
    | ⟨0, _⟩ => show win4_2.index t (0 : Fin 2) * 1 + 1 * (0 : Fin 1).val = (0 : Fin 1).val; omega
    | ⟨1, _⟩ => show win4_2.index t (1 : Fin 2) * 5 + 1 * q.val = q.val; omega
  · show Cert.Spec.head (V c main_v80) (V c main_arg9) (V c main_v81) (ix2 ⟨10000 * t.val + p.val, hr⟩ q)
      = Cert.Spec.head (V c main_v80) (V c main_arg9) (V c main_v81) (((cfg4.win 3).blk t).view.emb (ix2 p q))
    refine congrArg (Cert.Spec.head (V c main_v80) (V c main_arg9) (V c main_v81)) (funext fun a => Fin.ext ?_)
    match a with
    | ⟨0, _⟩ => show 10000 * t.val + p.val = win4_3.index t (0 : Fin 2) * 10000 + 1 * p.val; omega
    | ⟨1, _⟩ => show q.val = win4_3.index t (1 : Fin 2) * 5 + 1 * q.val; omega

/-- An index of the output array is in point t's block iff each coordinate is in the block's range on its axis. -/
private theorem head_mem_block (t : Fin cfg4.N) (i : S100000x5.Idx) :
    i ∈ ((cfg4.win 3).blk t).view.set ↔ ∀ a : Fin 2, win4_3.index t a * S10000x5.size a ≤ (i a).val
      ∧ (i a).val < win4_3.index t a * S10000x5.size a + S10000x5.size a := by
  show i ∈ ((View.whole main_v82).slice (win4_3.rect t)).set ↔ _
  rw [View.set_slice_whole, Rect.mem_set_unit]
  exact Iff.rfl

/-- Every row r of the output lies in the block of point r / 10000, which is written back. -/
private theorem head_cover (i : S100000x5.Idx) :
    ∃ t : Fin cfg4.N, (cfg4.win 3).flush t = true ∧ i ∈ ((cfg4.win 3).blk t).view.set := by
  have hN : cfg4.N = 10 := N_4
  have hi0 : (i 0).val < 100000 := (i 0).isLt
  have hi1 : (i 1).val < 5 := (i 1).isLt
  have hlt : (i 0).val / 10000 < cfg4.N := by rw [hN]; omega
  obtain ⟨-, -, -, -, -, -, e30, e31⟩ := head_index ⟨(i 0).val / 10000, hlt⟩
  have e30' : win4_3.index ⟨(i 0).val / 10000, hlt⟩ (0 : Fin 2) = (i 0).val / 10000 := e30
  refine ⟨⟨(i 0).val / 10000, hlt⟩, flush4_3 _, ?_⟩
  rw [head_mem_block]
  intro a
  match a with
  | ⟨0, _⟩ =>
    show win4_3.index ⟨(i 0).val / 10000, hlt⟩ (0 : Fin 2) * 10000 ≤ (i 0).val
      ∧ (i 0).val < win4_3.index ⟨(i 0).val / 10000, hlt⟩ (0 : Fin 2) * 10000 + 10000
    omega
  | ⟨1, _⟩ =>
    show win4_3.index ⟨(i 0).val / 10000, hlt⟩ (1 : Fin 2) * 5 ≤ (i 1).val
      ∧ (i 1).val < win4_3.index ⟨(i 0).val / 10000, hlt⟩ (1 : Fin 2) * 5 + 5
    omega

theorem arr4 (c : Dev nD) :
    (dat4 (F := Ideal) V c).arrAt 3 cfg4.N = Cert.Spec.head (V c main_v80) (V c main_arg9) (V c main_v81) :=
  (dat4 (F := Ideal) V c).arrAt_eq_of_cover 3 (Cert.Spec.head (V c main_v80) (V c main_arg9) (V c main_v81))
    (fun t _ => head_flushed V c t) head_cover

end Cert.KRegion

end
-- ==== Proof.KValue.lean ====
/-
  The kernel program's result as one function of the argument arrays: boundary by boundary through @main, the edge data
  and the arguments persist, each launch applies its map to the array before it, and each stretch between two launches
  applies the neighbourhood sum.
-/
import proofs.«419415_j21852793602865_2_alg».proof.Proof.Gen.KernelIdeal.Frame
import proofs.«419415_j21852793602865_2_alg».proof.Proof.KHost
import proofs.«419415_j21852793602865_2_alg».proof.Proof.Region0
import proofs.«419415_j21852793602865_2_alg».proof.Proof.Region1
import proofs.«419415_j21852793602865_2_alg».proof.Proof.Region2
import proofs.«419415_j21852793602865_2_alg».proof.Proof.Region3
import proofs.«419415_j21852793602865_2_alg».proof.Proof.Region4

set_option maxRecDepth 16384

noncomputable section

namespace Cert.KValue

open Idealize.ShloMosaic Idealize.ShloMosaic.TcCoe Idealize.ShloMosaic.StableHlo Idealize.ShloMosaic.ValueIdx
open Cert.KernelIdeal Cert.KernelIdeal.Gen Cert.KHost

variable (m : (ℓ : Loc nD τ sig) → Buf (Elt Ideal) ℓ) (ρ : Dev nD → PrngReg)

/-! ## What persists -/

/-- The buffers later stretches and launches read and nothing after the first stretch writes: the edge list's sources
    and targets, the reciprocal degrees, and the weight and bias arguments. -/
def kept : List (Ref sig .tc) :=
  [main_v4, main_v7, main_v13, main_arg2, main_arg3, main_arg4, main_arg5, main_arg6, main_arg7, main_arg8, main_arg9, main_arg10]

set_option hygiene false in
/-- One goal per kept buffer, each closed by the same tactic. -/
macro "each_kept " hr:ident " => " t:tactic : tactic =>
  `(tactic| (simp only [kept, List.mem_cons, List.not_mem_nil, or_false] at $hr:ident
             rcases $hr:ident with rfl | rfl | rfl | rfl | rfl | rfl | rfl | rfl | rfl | rfl | rfl | rfl <;> $t))

/-- A buffer that no operation of a stretch writes keeps its contents through the stretch: no operation's written buffer
    is it. -/
macro "keep_through " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem step2 (c : Dev nD) (r : Ref sig .tc) (hr : r ∈ kept) :
    W2 m ρ c (Proc.devRef .tc r) = W1 m ρ c (Proc.devRef .tc r) := by
  each_kept hr => first
    | exact W2_of_ne m ρ c _ (by decide)
    | exact (W2_arr m ρ c 1).trans (((dat0 (V1 m ρ) c).arrAt_in 1 rfl _).trans (A_eq0 (V1 m ρ) c 1))

theorem step3 (c : Dev nD) (r : Ref sig .tc) (hr : r ∈ kept) :
    W3 m ρ c (Proc.devRef .tc r) = W2 m ρ c (Proc.devRef .tc r) := by
  each_kept hr => (show StableHlo.after (hostOps1 (F := Ideal)) (W2 m ρ c) _ = _; keep_through hostOps1)

theorem step4 (c : Dev nD) (r : Ref sig .tc) (hr : r ∈ kept) :
    W4 m ρ c (Proc.devRef .tc r) = W3 m ρ c (Proc.devRef .tc r) := by
  each_kept hr => first
    | exact W4_of_ne m ρ c _ (by decide)
    | exact (W4_arr m ρ c 1).trans (((dat1 (V3 m ρ) c).arrAt_in 1 rfl _).trans (A_eq1 (V3 m ρ) c 1))

theorem step5 (c : Dev nD) (r : Ref sig .tc) (hr : r ∈ kept) :
    W5 m ρ c (Proc.devRef .tc r) = W4 m ρ c (Proc.devRef .tc r) := by
  each_kept hr => (show StableHlo.after (hostOps2 (F := Ideal)) (W4 m ρ c) _ = _; keep_through hostOps2)

theorem step6 (c : Dev nD) (r : Ref sig .tc) (hr : r ∈ kept) :
    W6 m ρ c (Proc.devRef .tc r) = W5 m ρ c (Proc.devRef .tc r) := by
  each_kept hr => first
    | exact W6_of_ne m ρ c _ (by decide)
    | exact (W6_arr m ρ c 1).trans (((dat2 (V5 m ρ) c).arrAt_in 1 rfl _).trans (A_eq2 (V5 m ρ) c 1))

theorem step7 (c : Dev nD) (r : Ref sig .tc) (hr : r ∈ kept) :
    W7 m ρ c (Proc.devRef .tc r) = W6 m ρ c (Proc.devRef .tc r) := by
  each_kept hr => (show StableHlo.after (hostOps3 (F := Ideal)) (W6 m ρ c) _ = _; keep_through hostOps3)

theorem step8 (c : Dev nD) (r : Ref sig .tc) (hr : r ∈ kept) :
    W8 m ρ c (Proc.devRef .tc r) = W7 m ρ c (Proc.devRef .tc r) := by
  each_kept hr => first
    | exact W8_of_ne m ρ c _ (by decide)
    | exact (W8_arr m ρ c 1).trans (((dat3 (V7 m ρ) c).arrAt_in 1 rfl _).trans (A_eq3 (V7 m ρ) c 1))

theorem step9 (c : Dev nD) (r : Ref sig .tc) (hr : r ∈ kept) :
    W9 m ρ c (Proc.devRef .tc r) = W8 m ρ c (Proc.devRef .tc r) := by
  each_kept hr => (show StableHlo.after (hostOps4 (F := Ideal)) (W8 m ρ c) _ = _; keep_through hostOps4)

/-- The same through all the boundaries up to each one. -/
theorem upto3 (c : Dev nD) (r : Ref sig .tc) (hr : r ∈ kept) :
    W3 m ρ c (Proc.devRef .tc r) = W1 m ρ c (Proc.devRef .tc r) :=
  (step3 m ρ c r hr).trans (step2 m ρ c r hr)
theorem upto4 (c : Dev nD) (r : Ref sig .tc) (hr : r ∈ kept) :
    W4 m ρ c (Proc.devRef .tc r) = W1 m ρ c (Proc.devRef .tc r) :=
  (step4 m ρ c r hr).trans (upto3 m ρ c r hr)
theorem upto5 (c : Dev nD) (r : Ref sig .tc) (hr : r ∈ kept) :
    W5 m ρ c (Proc.devRef .tc r) = W1 m ρ c (Proc.devRef .tc r) :=
  (step5 m ρ c r hr).trans (upto4 m ρ c r hr)
theorem upto6 (c : Dev nD) (r : Ref sig .tc) (hr : r ∈ kept) :
    W6 m ρ c (Proc.devRef .tc r) = W1 m ρ c (Proc.devRef .tc r) :=
  (step6 m ρ c r hr).trans (upto5 m ρ c r hr)
theorem upto7 (c : Dev nD) (r : Ref sig .tc) (hr : r ∈ kept) :
    W7 m ρ c (Proc.devRef .tc r) = W1 m ρ c (Proc.devRef .tc r) :=
  (step7 m ρ c r hr).trans (upto6 m ρ c r hr)
theorem upto8 (c : Dev nD) (r : Ref sig .tc) (hr : r ∈ kept) :
    W8 m ρ c (Proc.devRef .tc r) = W1 m ρ c (Proc.devRef .tc r) :=
  (step8 m ρ c r hr).trans (upto7 m ρ c r hr)
theorem upto9 (c : Dev nD) (r : Ref sig .tc) (hr : r ∈ kept) :
    W9 m ρ c (Proc.devRef .tc r) = W1 m ρ c (Proc.devRef .tc r) :=
  (step9 m ρ c r hr).trans (upto8 m ρ c r hr)

/-- The first stretch writes no argument. -/
theorem arg1 (c : Dev nD) (r : Ref sig .tc)
    (hr : r ∈ [main_arg2, main_arg3, main_arg4, main_arg5, main_arg6, main_arg7, main_arg8, main_arg9, main_arg10]) :
    W1 m ρ c (Proc.devRef .tc r) = W0 m ρ c (Proc.devRef .tc r) := by
  simp only [List.mem_cons, List.not_mem_nil, or_false] at hr
  rcases hr with rfl | rfl | rfl | rfl | rfl | rfl | rfl | rfl | rfl <;>
    (show StableHlo.after (hostOps0 (F := Ideal)) (W0 m ρ c) _ = _; keep_through hostOps0)

/-! ## The values, boundary by boundary -/

theorem layer_congr {a a' : (⟨2, ![100000, 30]⟩ : Shape).Idx → EReal} {w w' : (⟨2, ![30, 30]⟩ : Shape).Idx → EReal}
    {b b' : (⟨2, ![1, 30]⟩ : Shape).Idx → EReal} (ha : a = a') (hw : w = w') (hb : b = b') :
    Cert.Spec.layer a w b = Cert.Spec.layer a' w' b' := by subst ha hw hb; rfl

theorem head_congr {a a' : (⟨2, ![100000, 30]⟩ : Shape).Idx → EReal} {w w' : (⟨2, ![5, 30]⟩ : Shape).Idx → EReal}
    {b b' : (⟨2, ![1, 5]⟩ : Shape).Idx → EReal} (ha : a = a') (hw : w = w') (hb : b = b') :
    Cert.Spec.head a w b = Cert.Spec.head a' w' b' := by subst ha hw hb; rfl

theorem aggRaw_congr {r r' cl cl' : IVec S1700000 32} {d d' : FVec Ideal S100000 .f32} {h h' : FVec Ideal S100000x30 .f32}
    (hr : r = r') (hc : cl = cl') (hd : d = d') (hh : h = h') : aggRaw r cl d h = aggRaw r' cl' d' h' := by
  subst hr hc hd hh; rfl

section Values

variable (c : Dev nD)

/-- The id column the first launch reads. -/
theorem ids1 : W1 m ρ c (Proc.devRef .tc main_v0) = Cert.Spec.colVec (m ((c : Thread nD τ).loc main_arg0)) :=
  (h0_ids (W0 m ρ c)).trans (colVec_eq _ _)

/-- After the embedding launch: each node's row of the table. -/
theorem emb2 (hx : ∀ i : S100000.Idx, (m ((c : Thread nD τ).loc main_arg0) i : BitVec 32).toNat < 128) :
    W2 m ρ c (Proc.devRef .tc main_v14)
    = Cert.Spec.embedRows (Cert.Spec.colVec (m ((c : Thread nD τ).loc main_arg0))) (m ((c : Thread nD τ).loc main_arg2)) :=
  (W2_arr m ρ c 2).trans ((Cert.KRegion.arr0 (V1 m ρ) c (fun i => by
      rw [show (V1 m ρ c main_v0 : S100000x1.Idx → BitVec 32) = Cert.Spec.colVec (m ((c : Thread nD τ).loc main_arg0)) from ids1 m ρ c]
      exact hx _)).trans
    (by rw [show (V1 m ρ c main_v0 : S100000x1.Idx → BitVec 32) = Cert.Spec.colVec (m ((c : Thread nD τ).loc main_arg0)) from ids1 m ρ c,
            show (V1 m ρ c main_arg2 : S128x30.Idx → EReal) = m ((c : Thread nD τ).loc main_arg2) from arg1 m ρ c main_arg2 (by simp)]))

end Values

/-- The edge list as the argument array gives it. -/
abbrev ei (c : Dev nD) : IVec S2x1600000 32 := m ((c : Thread nD τ).loc main_arg1)
/-- The feature rows after the embedding and after each hidden layer. -/
abbrev H0 (c : Dev nD) : FVec Ideal S100000x30 .f32 :=
  Cert.Spec.embedRows (Cert.Spec.colVec (m ((c : Thread nD τ).loc main_arg0))) (m ((c : Thread nD τ).loc main_arg2))
abbrev H1 (c : Dev nD) : FVec Ideal S100000x30 .f32 :=
  Cert.Spec.layer (Cert.KChain.agg (ei m c) (H0 m c)) (m ((c : Thread nD τ).loc main_arg3))
    (Cert.Spec.rowVec (m ((c : Thread nD τ).loc main_arg4)))
abbrev H2 (c : Dev nD) : FVec Ideal S100000x30 .f32 :=
  Cert.Spec.layer (Cert.KChain.agg (ei m c) (H1 m c)) (m ((c : Thread nD τ).loc main_arg5))
    (Cert.Spec.rowVec (m ((c : Thread nD τ).loc main_arg6)))
abbrev H3 (c : Dev nD) : FVec Ideal S100000x30 .f32 :=
  Cert.Spec.layer (Cert.KChain.agg (ei m c) (H2 m c)) (m ((c : Thread nD τ).loc main_arg7))
    (Cert.Spec.rowVec (m ((c : Thread nD τ).loc main_arg8)))

section Chain

variable (c : Dev nD) (hx : ∀ i : S100000.Idx, (m ((c : Thread nD τ).loc main_arg0) i : BitVec 32).toNat < 128)
include hx

/-- Before the first hidden launch: the neighbourhood sum of the embedding rows. -/
theorem agg3 : W3 m ρ c (Proc.devRef .tc main_v34) = Cert.KChain.agg (ei m c) (H0 m c) :=
  (h1_agg (W2 m ρ c)).trans ((aggRaw_congr
      ((step2 m ρ c main_v4 (by decide)).trans (h0_row (W0 m ρ c)))
      ((step2 m ρ c main_v7 (by decide)).trans (h0_col (W0 m ρ c)))
      ((step2 m ρ c main_v13 (by decide)).trans (h0_dinv (W0 m ρ c)))
      (emb2 m ρ c hx)).trans (agg_eq_raw _ _).symm)

omit hx in
/-- The first bias as a row. -/
theorem bias3 : W3 m ρ c (Proc.devRef .tc main_v35) = Cert.Spec.rowVec (m ((c : Thread nD τ).loc main_arg4)) :=
  (h1_bias (W2 m ρ c)).trans ((rowVec_eq _ _).trans
    (congrArg Cert.Spec.rowVec ((step2 m ρ c main_arg4 (by decide)).trans (arg1 m ρ c main_arg4 (by decide)))))

/-- After the first hidden launch. -/
theorem lay4 : W4 m ρ c (Proc.devRef .tc main_v36) = H1 m c :=
  (W4_arr m ρ c 3).trans ((Cert.KRegion.arr1 (V3 m ρ) c).trans (layer_congr (agg3 m ρ c hx)
    ((upto3 m ρ c main_arg3 (by decide)).trans (arg1 m ρ c main_arg3 (by decide))) (bias3 m ρ c)))

theorem agg5 : W5 m ρ c (Proc.devRef .tc main_v56) = Cert.KChain.agg (ei m c) (H1 m c) :=
  (h2_agg (W4 m ρ c)).trans ((aggRaw_congr
      ((upto4 m ρ c main_v4 (by decide)).trans (h0_row (W0 m ρ c)))
      ((upto4 m ρ c main_v7 (by decide)).trans (h0_col (W0 m ρ c)))
      ((upto4 m ρ c main_v13 (by decide)).trans (h0_dinv (W0 m ρ c)))
      (lay4 m ρ c hx)).trans (agg_eq_raw _ _).symm)

omit hx in
theorem bias5 : W5 m ρ c (Proc.devRef .tc main_v57) = Cert.Spec.rowVec (m ((c : Thread nD τ).loc main_arg6)) :=
  (h2_bias (W4 m ρ c)).trans ((rowVec_eq _ _).trans
    (congrArg Cert.Spec.rowVec ((upto4 m ρ c main_arg6 (by decide)).trans (arg1 m ρ c main_arg6 (by decide)))))

/-- After the second hidden launch. -/
theorem lay6 : W6 m ρ c (Proc.devRef .tc main_v58) = H2 m c :=
  (W6_arr m ρ c 3).trans ((Cert.KRegion.arr2 (V5 m ρ) c).trans (layer_congr (agg5 m ρ c hx)
    ((upto5 m ρ c main_arg5 (by decide)).trans (arg1 m ρ c main_arg5 (by decide))) (bias5 m ρ c)))

theorem agg7 : W7 m ρ c (Proc.devRef .tc main_v78) = Cert.KChain.agg (ei m c) (H2 m c) :=
  (h3_agg (W6 m ρ c)).trans ((aggRaw_congr
      ((upto6 m ρ c main_v4 (by decide)).trans (h0_row (W0 m ρ c)))
      ((upto6 m ρ c main_v7 (by decide)).trans (h0_col (W0 m ρ c)))
      ((upto6 m ρ c main_v13 (by decide)).trans (h0_dinv (W0 m ρ c)))
      (lay6 m ρ c hx)).trans (agg_eq_raw _ _).symm)

omit hx in
theorem bias7 : W7 m ρ c (Proc.devRef .tc main_v79) = Cert.Spec.rowVec (m ((c : Thread nD τ).loc main_arg8)) :=
  (h3_bias (W6 m ρ c)).trans ((rowVec_eq _ _).trans
    (congrArg Cert.Spec.rowVec ((upto6 m ρ c main_arg8 (by decide)).trans (arg1 m ρ c main_arg8 (by decide)))))

/-- After the third hidden launch. -/
theorem lay8 : W8 m ρ c (Proc.devRef .tc main_v80) = H3 m c :=
  (W8_arr m ρ c 3).trans ((Cert.KRegion.arr3 (V7 m ρ) c).trans (layer_congr (agg7 m ρ c hx)
    ((upto7 m ρ c main_arg7 (by decide)).trans (arg1 m ρ c main_arg7 (by decide))) (bias7 m ρ c)))

/-- The last stretch leaves the third layer's output where it is. -/
theorem lay9 : W9 m ρ c (Proc.devRef .tc main_v80) = H3 m c :=
  (show StableHlo.after (hostOps4 (F := Ideal)) (W8 m ρ c) (Proc.devRef .tc main_v80) = W8 m ρ c (Proc.devRef .tc main_v80) from by
    keep_through hostOps4).trans (lay8 m ρ c hx)

omit hx in
theorem bias9 : W9 m ρ c (Proc.devRef .tc main_v81) = Cert.Spec.rowVec (m ((c : Thread nD τ).loc main_arg10)) :=
  (h4_bias (W8 m ρ c)).trans ((rowVec_eq _ _).trans
    (congrArg Cert.Spec.rowVec ((upto8 m ρ c main_arg10 (by decide)).trans (arg1 m ρ c main_arg10 (by decide)))))

/-- THE RESULT: the last boundary's contents at the result's buffer are the network over the kernel program's
    neighbourhood sum. -/
theorem result : W10 m ρ c (Proc.devRef .tc main_v82)
    = Cert.Spec.net (Cert.KChain.agg (ei m c)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) :=
  (W10_arr m ρ c 3).trans ((Cert.KRegion.arr4 (V9 m ρ) c).trans (head_congr (lay9 m ρ c hx)
    ((upto9 m ρ c main_arg9 (by decide)).trans (arg1 m ρ c main_arg9 (by decide))) (bias9 m ρ c)))

end Chain

end Cert.KValue

end
-- ==== Proof.Pre.lean ====
/-
  What the precondition says of the ids: every id lies inside the table, 0 ≤ id < 128.
-/
import proofs.«419415_j21852793602865_2_alg».proof.Pre_finite_inputs
import proofs.«419415_j21852793602865_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreRead

open Idealize.ShloMosaic Idealize.ShloMosaic.ValueIdx Cert.Pre_finite_inputs

/-! ## Words and bits -/

/-- A conjunction of one-bit words at an index is the conjunction of the bits. -/
private theorem andi_at {s : Shape} {w : Nat} (x y : IVec s w) (i : s.Idx) : andi x y i = IntOp.andi (x i) (y i) := rfl

/-- A word compare at an index compares the elements. -/
private theorem cmpi_at {s : Shape} {w : Nat} (pr : CmpIPredicate) (x y : IVec s w) (i : s.Idx) :
    cmpi pr x y i = IntOp.cmpi pr (x i) (y i) := rfl

/-- The rank-zero shape has one index. -/
private instance : Subsingleton S_.Idx := ⟨fun a b => funext fun d => d.elim0⟩

/-- A 32-bit word whose signed value lies in [0, 128) is below 128 read unsigned: a nonnegative signed value
    is the unsigned one. -/
private theorem toNat_lt_of_signed (x : BitVec 32) (h0 : (0#32 : BitVec 32).toInt ≤ x.toInt)
    (h1 : x.toInt < (128#32 : BitVec 32).toInt) : x.toNat < 128 := by
  have e0 : (0#32 : BitVec 32).toInt = 0 := by decide
  have e1 : (128#32 : BitVec 32).toInt = 128 := by decide
  rw [e0] at h0
  rw [e1] at h1
  have hx := x.isLt
  rw [BitVec.toInt_eq_toNat_cond] at h0 h1
  split at h0 <;> omega

/-- Under the precondition every id, read as an unsigned word, is below 128. -/
theorem id_lt (a0 : IVec S100000 32) (a1 : IVec S2x1600000 32) (a2 : FVec Ideal S128x30 .f32)
    (a3 : FVec Ideal S30x30 .f32) (a4 : FVec Ideal S30 .f32) (a5 : FVec Ideal S30x30 .f32) (a6 : FVec Ideal S30 .f32)
    (a7 : FVec Ideal S30x30 .f32) (a8 : FVec Ideal S30 .f32) (a9 : FVec Ideal S5x30 .f32) (a10 : FVec Ideal S5 .f32)
    (h : Cert.Pre_finite_inputs.fn (F := Ideal) a0 a1 a2 a3 a4 a5 a6 a7 a8 a9 a10 = (fun _ => 1#1)) :
    ∀ i : S100000.Idx, (a0 i).toNat < 128 := by
  intro i
  -- the predicate's one entry is the conjunction of ten all-tests (nine finiteness tests, then the range test on the ids)
  have h0 := congrFun h ValueIdx.ix0
  dsimp only [fn, fn_part1, fn_part2] at h0
  rw [andi_at] at h0
  have hall := (IntOp.andi_eq_one.1 h0).2
  -- an all-test that holds, holds at every entry
  have hi := Host.reduce_andi_all _ _ _ _ _ hall i
  rw [andi_at, cmpi_at, cmpi_at] at hi
  obtain ⟨hge, hlt⟩ := IntOp.andi_eq_one.1 hi
  -- a broadcast constant reads the constant at every index: the two compares are 0 ≤ id and id < 128, signed
  have hge' : (0#32 : BitVec 32).toInt ≤ (a0 i).toInt := IntOp.cmpi_sge.1 hge
  have hlt' : (a0 i).toInt < (128#32 : BitVec 32).toInt := IntOp.cmpi_slt.1 hlt
  exact toNat_lt_of_signed _ hge' hlt'

end Cert.PreRead

end
-- ==== Proof.RChain.lean ====
/-
  The reference program's edge side as functions of the argument arrays: the edge list with self loops (row, column),
  the in-degree, and the degree-normalised neighbourhood sum of one layer.
-/
import proofs.«419415_j21852793602865_2_alg».proof.Proof.Gen.ReferenceIdeal
import Idealize.ShloMosaic.PureOps.Ideal

noncomputable section

namespace Cert.RChain

open Idealize.ShloMosaic Cert.ReferenceIdeal Cert.ReferenceIdeal.Facts₀

/-- The sources of the edges, the nodes' own numbers appended (one self loop per node). -/
def rowOf (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The targets of the edges, the nodes' own numbers appended. -/
def colOf (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- How many edges leave each node (the self loop counted): ones added up at the sources. -/
def degOf (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (rowOf ei))
    (broadcastInDim S1700000 ![] bcast_S_S1700000 (constant (F := Ideal) S_ .f32 0x3F800000#32))

/-- The sources as gather indices: a negative number counted from the end. -/
def srcIdx (ei : IVec S2x1600000 32) : IVec S1700000x1 32 :=
  broadcastInDim S1700000x1 ![0] bcast_S1700000_S1700000x1_0
    (select (cmpi .slt (rowOf ei) (broadcastInDim S1700000 ![] bcast_S_S1700000 (constantI S_ 32 0#32)))
      (addi (rowOf ei) (broadcastInDim S1700000 ![] bcast_S_S1700000 (constantI S_ 32 100000#32))) (rowOf ei))

/-- One neighbourhood sum as the reference spells it: each edge carries its source's feature row divided by the
    source's degree, and the rows are added up at the targets. -/
def agg (ei : IVec S2x1600000 32) (h : FVec Ideal S100000x30 .f32) :
    FVec Ideal S100000x30 .f32 :=
  Host.scatterAdd (F := Ideal) scatter_S100000x30_S1700000x1_S1700000x30_1_0_0_1
    (broadcastInDim S100000x30 ![] bcast_S_S100000x30 (constant (F := Ideal) S_ .f32 0x00000000#32))
    (broadcastInDim S1700000x1 ![0] bcast_S1700000_S1700000x1_0 (colOf ei))
    (Host.divf (F := Ideal) (Host.gather gather_S100000x30_S1700000x1_S1700000x30_1_0_n_n_0_1_130 h (srcIdx ei))
      (broadcastInDim S1700000x30 ![0, 1] bcast_S1700000x1_S1700000x30_0_1
        (broadcastInDim S1700000x1 ![0] bcast_S1700000_S1700000x1_0
          (Host.gather gather_S100000_S1700000x1_S1700000_n_0_n_n_0_1_1 (degOf ei) (srcIdx ei)))))

end Cert.RChain

end
-- ==== Proof.Bridge.lean ====
/-
  No degree is zero: every node has its self loop, so the ones added up at a node include at least one. This is what lets
  multiplying an edge's feature row by the reciprocal of its source's degree be read as dividing it by that degree.
-/
import proofs.«419415_j21852793602865_2_alg».proof.Proof.KChain
import proofs.«419415_j21852793602865_2_alg».proof.Proof.RChain
import proofs.«419415_j21852793602865_2_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.Bridge

open Idealize.ShloMosaic Idealize.ShloMosaic.ValueIdx

/-! ## No degree is zero -/

section Degree
open Cert.KernelIdeal Cert.KernelIdeal.Facts₀

/-- The word 0x3F800000 is the real number one. -/
theorem ofBits_one_f32 : Ideal.ofBits .f32 0x3F800000#32 = 1 := by
  simp [Ideal.ofBits, Ideal.ieee, -EReal.coe_mul]; norm_num

/-- An accumulating scatter of ones into zeros is nonzero at every element some update lands on: the sum of the ones
    that land there has at least that one term, and no term is negative. -/
theorem hostScatterAdd_ne_zero {s si su : Shape} (d : ScatterDims s si su) {w : Nat} (x : s.Idx → EReal) (idx : IVec si w)
    (upd : su.Idx → EReal) (i : s.Idx) (j0 : su.Idx) (hx : x i = 0) (hupd : ∀ j, upd j = 1)
    (h : d.resultIdx? j0 idx = some i) : Ideal.hostScatterAdd d x idx upd i ≠ 0 := by
  unfold Ideal.hostScatterAdd
  rw [hx, zero_add]
  refine ne_of_gt (lt_of_lt_of_le zero_lt_one ?_)
  exact (hupd j0).symm.le.trans (Finset.single_le_sum (f := upd) (fun j _ => by rw [hupd j]; exact zero_le_one)
    (Finset.mem_filter.2 ⟨Finset.mem_univ _, h⟩))

/-- The start index of update position j, read off the positions kept as a column: the vector's word at j, signed. -/
theorem start_eq (x : IVec S1700000 32) (j : S1700000.Idx) (a : Fin S100000.rank) :
    scatter_S100000_S1700000x1_S1700000_n_0_0_1.start j (broadcastInDim S1700000x1 ![0] bcast_S1700000_S1700000x1_0 x) a = (x j).toInt := by
  have ha : a = 0 := Subsingleton.elim _ _
  subst ha
  unfold ScatterDims.start
  rw [dif_pos (show (0 : Fin S100000.rank) ∈ scatter_S100000_S1700000x1_S1700000_n_0_0_1.scatterDimsToOperandDims by decide)]
  congr 1
  refine broadcastInDim_apply _ _ x _ j fun b => ?_
  have hb : b = 0 := Subsingleton.elim _ _
  subst hb
  rw [if_neg (by decide)]
  unfold ScatterDims.siIdx
  rw [dif_neg (by decide)]
  unfold ScatterDims.siCoord
  simp only [Fin.val_cast]
  exact congrArg (fun X => (j X).val) (Subsingleton.elim _ _)

/-- The operand's one axis is inserted: there is no window coordinate. -/
theorem window_eq (j : S1700000.Idx) (a : Fin S100000.rank) : scatter_S100000_S1700000x1_S1700000_n_0_0_1.window j a = 0 := by
  have ha : a = 0 := Subsingleton.elim _ _
  subst ha
  unfold ScatterDims.window
  rw [dif_neg (show ¬ (0 : Fin S100000.rank) ∈ scatter_S100000_S1700000x1_S1700000_n_0_0_1.sKept by decide)]

/-- Update position j lands on node k when the word at j, signed, is k's number. -/
theorem lands (x : IVec S1700000 32) (j : S1700000.Idx) (k : S100000.Idx) (h : (x j).toInt = ((k 0).val : Int)) :
    scatter_S100000_S1700000x1_S1700000_n_0_0_1.resultIdx? j (broadcastInDim S1700000x1 ![0] bcast_S1700000_S1700000x1_0 x) = some k := by
  have hk : (k 0).val < 100000 := (k 0).isLt
  have hs : S100000.size 0 = 100000 := rfl
  have H : ∀ a : Fin S100000.rank,
      0 ≤ scatter_S100000_S1700000x1_S1700000_n_0_0_1.start j (broadcastInDim S1700000x1 ![0] bcast_S1700000_S1700000x1_0 x) a + (scatter_S100000_S1700000x1_S1700000_n_0_0_1.window j a : Int)
      ∧ scatter_S100000_S1700000x1_S1700000_n_0_0_1.start j (broadcastInDim S1700000x1 ![0] bcast_S1700000_S1700000x1_0 x) a + (scatter_S100000_S1700000x1_S1700000_n_0_0_1.window j a : Int) < (S100000.size a : Int) := fun a => by
    have ha : a = 0 := Subsingleton.elim _ _
    subst ha
    rw [start_eq, window_eq, h]
    constructor <;> omega
  unfold ScatterDims.resultIdx?
  rw [dif_pos H]
  refine congrArg some (funext fun a => Fin.ext ?_)
  have ha : a = 0 := Subsingleton.elim _ _
  subst ha
  show (scatter_S100000_S1700000x1_S1700000_n_0_0_1.start j (broadcastInDim S1700000x1 ![0] bcast_S1700000_S1700000x1_0 x) 0 + (scatter_S100000_S1700000x1_S1700000_n_0_0_1.window j 0 : Int)).toNat = (k 0).val
  rw [start_eq, window_eq, h]
  omega

/-- The source list at the k-th position past the edges is k's own number: the self loop. -/
theorem rowOf_self (ei : IVec S2x1600000 32) (k : S100000.Idx) (j : S1700000.Idx) (hj : (j 0).val = 1600000 + (k 0).val) :
    Cert.KChain.rowOf ei j = BitVec.ofNat 32 (k 0).val := by
  unfold Cert.KChain.rowOf
  exact concatenate_pair_apply_right (0 : Fin S1700000.rank) _ _ concatenates_S1600000_S100000_S1700000_d0 j rfl rfl k
    (fun b hb => absurd (Subsingleton.elim _ _) hb) (by show (k 0).val + 1600000 = (j 0).val; omega)

/-- The same for the host's accumulating scatter, which on the extended reals is that sum. -/
theorem host_scatterAdd_ne_zero {s si su : Shape} (d : ScatterDims s si su) {w : Nat} (x : FVec Ideal s .f32) (idx : IVec si w)
    (upd : FVec Ideal su .f32) (i : s.Idx) (j0 : su.Idx) (hx : x i = 0) (hupd : ∀ j, upd j = 1)
    (h : d.resultIdx? j0 idx = some i) : Host.scatterAdd (F := Ideal) d x idx upd i ≠ 0 :=
  hostScatterAdd_ne_zero d x idx upd i j0 hx hupd h

/-- The degree vector is the accumulating scatter of ones, at the sources kept as a column, into zeros. -/
theorem degOf_def (ei : IVec S2x1600000 32) :
    Cert.KChain.degOf ei = Host.scatterAdd (F := Ideal) scatter_S100000_S1700000x1_S1700000_n_0_0_1
      (broadcastInDim S100000 ![] bcast_S_S100000 (constant (F := Ideal) S_ .f32 0x00000000#32))
      (broadcastInDim S1700000x1 ![0] bcast_S1700000_S1700000x1_0 (Cert.KChain.rowOf ei))
      (broadcastInDim S1700000 ![] bcast_S_S1700000 (constant (F := Ideal) S_ .f32 0x3F800000#32)) := rfl

end Degree

/-- No node has degree zero. -/
theorem deg_ne_zero (ei : IVec (⟨2, ![2, 1600000]⟩ : Shape) 32) (k : (⟨1, ![100000]⟩ : Shape).Idx) :
    Cert.KChain.degOf ei k ≠ 0 := by
  have hk : (k 0).val < 100000 := (k 0).isLt
  have hj : 1600000 + (k 0).val < 1700000 := by omega
  have hrow : (Cert.KChain.rowOf ei (ix1 ⟨1600000 + (k 0).val, hj⟩)).toInt = ((k 0).val : Int) := by
    rw [rowOf_self ei k (ix1 ⟨1600000 + (k 0).val, hj⟩) rfl]
    exact StableHlo.Predicate.toInt_ofNat_small _ (by omega)
  rw [degOf_def]
  exact host_scatterAdd_ne_zero _ _ _ _ k (ix1 ⟨1600000 + (k 0).val, hj⟩) Ideal.ofBits_zero_f32 (fun _ => ofBits_one_f32)
    (lands _ _ k hrow)

end Cert.Bridge

end
-- ==== Proof.AggEq.lean ====
/-
  The two spellings of the neighbourhood sum agree: multiplying an edge's feature row by the reciprocal of its source's
  degree is dividing it by that degree, since no degree is zero. Both sums add the same carried rows up at the same
  targets; the carried rows agree edge by edge, because the reciprocal-degree column read at an edge is the reciprocal of
  the degree column read at that edge (both read one node, the edge's source).
-/
import proofs.«419415_j21852793602865_2_alg».proof.Proof.Bridge
import proofs.«419415_j21852793602865_2_alg».proof.Proof.KHost
import Idealize.ShloMosaic.Lib.IdealHost

noncomputable section

namespace Cert.AggEq
open Idealize.ShloMosaic Idealize.ShloMosaic.ValueIdx
open Cert.KernelIdeal Cert.KernelIdeal.Facts₀

/-- A gathered vector, made a column and repeated along the features, reads at an index the vector at one node, which
    node not depending on the vector. -/
theorem bcast_gather_apply (I : IVec S1700000x1 32) (j : S1700000x30.Idx) :
    ∃ k : S100000.Idx, ∀ Y : FVec Ideal S100000 .f32,
      broadcastInDim S1700000x30 ![0, 1] bcast_S1700000x1_S1700000x30_0_1
        (broadcastInDim S1700000x1 ![0] bcast_S1700000_S1700000x1_0
          (Host.gather gather_S100000_S1700000x1_S1700000_n_0_n_n_0_1_1 Y I)) j = Y k :=
  ⟨_, fun Y => rfl⟩

/-- The neighbourhood sum over explicit edge data (sources, targets, degrees), quotient form. -/
def aggRawDiv (row col : IVec S1700000 32) (deg : FVec Ideal S100000 .f32) (h : FVec Ideal S100000x30 .f32) :
    FVec Ideal S100000x30 .f32 :=
  Host.scatterAdd (F := Ideal) scatter_S100000x30_S1700000x1_S1700000x30_1_0_0_1
    (broadcastInDim S100000x30 ![] bcast_S_S100000x30 (constant (F := Ideal) S_ .f32 0x00000000#32))
    (broadcastInDim S1700000x1 ![0] bcast_S1700000_S1700000x1_0 col)
    (Host.divf (F := Ideal) (Host.gather gather_S100000x30_S1700000x1_S1700000x30_1_0_n_n_0_1_130 h
        (broadcastInDim S1700000x1 ![0] bcast_S1700000_S1700000x1_0
          (select (cmpi .slt row (broadcastInDim S1700000 ![] bcast_S_S1700000 (constantI S_ 32 0#32)))
            (addi row (broadcastInDim S1700000 ![] bcast_S_S1700000 (constantI S_ 32 100000#32))) row)))
      (broadcastInDim S1700000x30 ![0, 1] bcast_S1700000x1_S1700000x30_0_1
        (broadcastInDim S1700000x1 ![0] bcast_S1700000_S1700000x1_0
          (Host.gather gather_S100000_S1700000x1_S1700000_n_0_n_n_0_1_1 deg
            (broadcastInDim S1700000x1 ![0] bcast_S1700000_S1700000x1_0
              (select (cmpi .slt row (broadcastInDim S1700000 ![] bcast_S_S1700000 (constantI S_ 32 0#32)))
                (addi row (broadcastInDim S1700000 ![] bcast_S_S1700000 (constantI S_ 32 100000#32))) row))))))

/-- The reference's sum is the quotient form over the kernel program's edge data: the two programs' edge stages and
    shape records are the same terms. -/
theorem aggR_raw (ei : IVec S2x1600000 32) (h : FVec Ideal S100000x30 .f32) :
    Cert.RChain.agg ei h = aggRawDiv (Cert.KChain.rowOf ei) (Cert.KChain.colOf ei) (Cert.KChain.degOf ei) h := rfl

/-- The reciprocal of a vector, at an index, is one over the entry. -/
theorem recip_apply (Y : FVec Ideal S100000 .f32) (k : S100000.Idx) :
    Host.divf (F := Ideal) (broadcastInDim S100000 ![] bcast_S_S100000 (constant (F := Ideal) S_ .f32 0x3F800000#32)) Y k
      = Ideal.div 1 (Y k) := by
  rw [hostDivf_apply, broadcastInDim_scalar_apply, constant_apply, Cert.Bridge.ofBits_one_f32]

/-- The reciprocal degrees are one over the degrees. -/
theorem degInv_def (ei : IVec S2x1600000 32) : Cert.KChain.degInvOf ei
    = Host.divf (F := Ideal) (broadcastInDim S100000 ![] bcast_S_S100000 (constant (F := Ideal) S_ .f32 0x3F800000#32)) (Cert.KChain.degOf ei) := rfl

/-- The sources as gather indices: a negative number counted from the end. -/
def idxOf (row : IVec S1700000 32) : IVec S1700000x1 32 :=
  broadcastInDim S1700000x1 ![0] bcast_S1700000_S1700000x1_0
    (select (cmpi .slt row (broadcastInDim S1700000 ![] bcast_S_S1700000 (constantI S_ 32 0#32)))
      (addi row (broadcastInDim S1700000 ![] bcast_S_S1700000 (constantI S_ 32 100000#32))) row)

/-- What the edges carry, in the product form and in the quotient form. -/
def updMul (row : IVec S1700000 32) (dinv : FVec Ideal S100000 .f32) (h : FVec Ideal S100000x30 .f32) : FVec Ideal S1700000x30 .f32 :=
  mulf (Host.gather gather_S100000x30_S1700000x1_S1700000x30_1_0_n_n_0_1_130 h (idxOf row))
    (broadcastInDim S1700000x30 ![0, 1] bcast_S1700000x1_S1700000x30_0_1
      (broadcastInDim S1700000x1 ![0] bcast_S1700000_S1700000x1_0
        (Host.gather gather_S100000_S1700000x1_S1700000_n_0_n_n_0_1_1 dinv (idxOf row))))
def updDiv (row : IVec S1700000 32) (deg : FVec Ideal S100000 .f32) (h : FVec Ideal S100000x30 .f32) : FVec Ideal S1700000x30 .f32 :=
  Host.divf (F := Ideal) (Host.gather gather_S100000x30_S1700000x1_S1700000x30_1_0_n_n_0_1_130 h (idxOf row))
    (broadcastInDim S1700000x30 ![0, 1] bcast_S1700000x1_S1700000x30_0_1
      (broadcastInDim S1700000x1 ![0] bcast_S1700000_S1700000x1_0
        (Host.gather gather_S100000_S1700000x1_S1700000_n_0_n_n_0_1_1 deg (idxOf row))))
/-- Adding the carried rows up at the targets. -/
def scat (col : IVec S1700000 32) (U : FVec Ideal S1700000x30 .f32) : FVec Ideal S100000x30 .f32 :=
  Host.scatterAdd (F := Ideal) scatter_S100000x30_S1700000x1_S1700000x30_1_0_0_1
    (broadcastInDim S100000x30 ![] bcast_S_S100000x30 (constant (F := Ideal) S_ .f32 0x00000000#32))
    (broadcastInDim S1700000x1 ![0] bcast_S1700000_S1700000x1_0 col) U

theorem aggRaw_eq (row col : IVec S1700000 32) (dinv : FVec Ideal S100000 .f32) (h : FVec Ideal S100000x30 .f32) :
    Cert.KHost.aggRaw row col dinv h = scat col (updMul row dinv h) := rfl
theorem aggRawDiv_eq (row col : IVec S1700000 32) (deg : FVec Ideal S100000 .f32) (h : FVec Ideal S100000x30 .f32) :
    aggRawDiv row col deg h = scat col (updDiv row deg h) := rfl

theorem upd_eq (row : IVec S1700000 32) (deg : FVec Ideal S100000 .f32) (hdeg : ∀ k, deg k ≠ 0) (h : FVec Ideal S100000x30 .f32) :
    updMul row (Host.divf (F := Ideal) (broadcastInDim S100000 ![] bcast_S_S100000 (constant (F := Ideal) S_ .f32 0x3F800000#32)) deg) h
      = updDiv row deg h := by
  funext j
  obtain ⟨k, hk⟩ := bcast_gather_apply (idxOf row) j
  unfold updMul updDiv
  rw [mulf_apply, hostDivf_apply, hk, hk, recip_apply]
  exact Cert.Spec.mul_one_div _ _ (hdeg k)

/-- Over explicit edge data with no zero degree, the product form is the quotient form. -/
theorem raw_eq (row col : IVec S1700000 32) (deg : FVec Ideal S100000 .f32) (hdeg : ∀ k, deg k ≠ 0) (h : FVec Ideal S100000x30 .f32) :
    Cert.KHost.aggRaw row col
      (Host.divf (F := Ideal) (broadcastInDim S100000 ![] bcast_S_S100000 (constant (F := Ideal) S_ .f32 0x3F800000#32)) deg) h
      = aggRawDiv row col deg h := by
  rw [aggRaw_eq, aggRawDiv_eq, upd_eq row deg hdeg h]

/-- The kernel program's neighbourhood sum is the reference's. -/
theorem agg_eq (ei : IVec (⟨2, ![2, 1600000]⟩ : Shape) 32) (h : FVec Ideal (⟨2, ![100000, 30]⟩ : Shape) .f32) :
    Cert.KChain.agg ei h = Cert.RChain.agg ei h := by
  rw [Cert.KHost.agg_eq_raw, aggR_raw, degInv_def]
  exact raw_eq _ _ _ (Cert.Bridge.deg_ne_zero ei) h

end Cert.AggEq

end
-- ==== Proof.RefLayer.lean ====
/-
  One reference layer read at an index: the product with the transposed weights, plus the broadcast bias, clipped at
  zero, is the layer map; the output head likewise without the clipping.
-/
import proofs.«419415_j21852793602865_2_alg».proof.Proof.Gen.ReferenceIdeal
import proofs.«419415_j21852793602865_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.RefLayer

open Idealize.ShloMosaic Idealize.ShloMosaic.ValueIdx Cert.ReferenceIdeal Cert.ReferenceIdeal.Facts₀

/-- The product's dimension numbers contract the features' axis 1 with the transposed weights' axis 0: at output index i
    and contraction index κ the left operand is read at (i 0, κ) -/
private theorem lhsL_0 (i : S100000x30.Idx) (κ : dot_S100000x30_S30x30_S100000x30_1_0_0_1_n_n.contr.Idx) :
    (dot_S100000x30_S30x30_S100000x30_1_0_0_1_n_n.lhsIdx i κ 0).val = (i 0).val := by
  unfold DotDims.lhsIdx
  rw [dif_neg (show ¬(0 : Fin S100000x30.rank) ∈ dot_S100000x30_S30x30_S100000x30_1_0_0_1_n_n.lhsBatch by decide),
    dif_pos (show (0 : Fin S100000x30.rank) ∈ dot_S100000x30_S30x30_S100000x30_1_0_0_1_n_n.lhsNonContracting by decide)]
  rfl
private theorem lhsL_1 (i : S100000x30.Idx) (κ : dot_S100000x30_S30x30_S100000x30_1_0_0_1_n_n.contr.Idx) :
    (dot_S100000x30_S30x30_S100000x30_1_0_0_1_n_n.lhsIdx i κ 1).val = (κ ⟨0, by decide⟩).val :=
  dot_S100000x30_S30x30_S100000x30_1_0_0_1_n_n.lhsIdx_val_of_single rfl i κ
/-- and the right operand at (κ, i 1). -/
private theorem rhsL_0 (i : S100000x30.Idx) (κ : dot_S100000x30_S30x30_S100000x30_1_0_0_1_n_n.contr.Idx) :
    (dot_S100000x30_S30x30_S100000x30_1_0_0_1_n_n.rhsIdx i κ 0).val = (κ ⟨0, by decide⟩).val :=
  dot_S100000x30_S30x30_S100000x30_1_0_0_1_n_n.rhsIdx_val_of_single rfl i κ
private theorem rhsL_1 (i : S100000x30.Idx) (κ : dot_S100000x30_S30x30_S100000x30_1_0_0_1_n_n.contr.Idx) :
    (dot_S100000x30_S30x30_S100000x30_1_0_0_1_n_n.rhsIdx i κ 1).val = (i 1).val := by
  unfold DotDims.rhsIdx
  rw [dif_neg (show ¬(1 : Fin S30x30.rank) ∈ dot_S100000x30_S30x30_S100000x30_1_0_0_1_n_n.rhsBatch by decide),
    dif_pos (show (1 : Fin S30x30.rank) ∈ dot_S100000x30_S30x30_S100000x30_1_0_0_1_n_n.rhsNonContracting by decide)]
  rfl

/-- The product at (r, q) is the sum over k of x (r, k) * y (k, q). -/
private theorem productL (x : FVec Ideal S100000x30 .f32) (y : FVec Ideal S30x30 .f32) (r : Fin 100000) (q : Fin 30) :
    Host.dotGeneral (F := Ideal) dot_S100000x30_S30x30_S100000x30_1_0_0_1_n_n none x y (ix2 r q) = ∑ k : Fin 30, x (ix2 r k) * y (ix2 k q) := by
  simp only [Host.dotGeneral]
  rw [Ideal.dotGeneral_apply, ← Equiv.sum_comp (ValueIdx.contrEquiv1 dot_S100000x30_S30x30_S100000x30_1_0_0_1_n_n 30 rfl rfl).symm]
  refine Finset.sum_congr rfl fun k _ => ?_
  have hk := ValueIdx.contrEquiv1_symm_val dot_S100000x30_S30x30_S100000x30_1_0_0_1_n_n 30 rfl rfl k
  have el : dot_S100000x30_S30x30_S100000x30_1_0_0_1_n_n.lhsIdx (ix2 r q) ((ValueIdx.contrEquiv1 dot_S100000x30_S30x30_S100000x30_1_0_0_1_n_n 30 rfl rfl).symm k) = ix2 r k :=
    funext fun a => Fin.ext (by
      match a with
      | ⟨0, _⟩ => exact lhsL_0 _ _
      | ⟨1, _⟩ => exact (lhsL_1 _ _).trans hk)
  have er : dot_S100000x30_S30x30_S100000x30_1_0_0_1_n_n.rhsIdx (ix2 r q) ((ValueIdx.contrEquiv1 dot_S100000x30_S30x30_S100000x30_1_0_0_1_n_n 30 rfl rfl).symm k) = ix2 k q :=
    funext fun a => Fin.ext (by
      match a with
      | ⟨0, _⟩ => exact (rhsL_0 _ _).trans hk
      | ⟨1, _⟩ => exact rhsL_1 _ _)
  rw [el, er]

/-- The transposed weights at (k, q) are the weights at (q, k). -/
private theorem transposedL (w : FVec Ideal S30x30 .f32) (k : Fin 30) (q : Fin 30) :
    transpose S30x30 [1, 0] w transposes_S30x30_S30x30_1_0 (ix2 k q) = w (ix2 q k) :=
  transpose_apply [1, 0] w transposes_S30x30_S30x30_1_0 (ix2 k q) (ix2 q k) (fun a => match a with
    | ⟨0, _⟩ => rfl
    | ⟨1, _⟩ => rfl)

/-- The bias, made a row and repeated down the rows, at (r, q) is the bias at q. -/
private theorem biasL (b : FVec Ideal S30 .f32) (r : Fin 100000) (q : Fin 30) :
    broadcastInDim S100000x30 ![0, 1] bcast_S1x30_S100000x30_0_1 (broadcastInDim S1x30 ![1] bcast_S30_S1x30_1 b) (ix2 r q) = b (ix1 q) := by
  refine (broadcastInDim_apply _ bcast_S1x30_S100000x30_0_1 _ (ix2 r q) (ix2 (0 : Fin 1) q) (fun a => match a with
    | ⟨0, _⟩ => by show 0 = if (1 : Nat) = 1 then 0 else r.val; rw [if_pos rfl]
    | ⟨1, _⟩ => by show q.val = if (30 : Nat) = 1 then 0 else q.val; rw [if_neg (by decide)])).trans ?_
  exact broadcastInDim_apply _ bcast_S30_S1x30_1 b (ix2 (0 : Fin 1) q) (ix1 q) (fun a => match a with
    | ⟨0, _⟩ => by show q.val = if (30 : Nat) = 1 then 0 else q.val; rw [if_neg (by decide)])

/-- The zero word, repeated over the matrix, is zero at every index. -/
private theorem zeros (r : Fin 100000) (q : Fin 30) :
    broadcastInDim S100000x30 ![] bcast_S_S100000x30 (constant (F := Ideal) S_ .f32 0x00000000#32) (ix2 r q) = (0 : EReal) := by
  refine (broadcastInDim_apply _ bcast_S_S100000x30 _ (ix2 r q) (fun a => a.elim0) (fun a => a.elim0)).trans ?_
  show Ideal.ofBits .f32 0x00000000#32 = 0
  exact Ideal.ofBits_zero_f32

theorem layer_eq (h : FVec Ideal S100000x30 .f32) (w : FVec Ideal S30x30 .f32) (b : FVec Ideal S30 .f32) :
    maximumf (F := Ideal)
        (addf (Host.dotGeneral (F := Ideal) dot_S100000x30_S30x30_S100000x30_1_0_0_1_n_n none h
            (transpose S30x30 [1, 0] w transposes_S30x30_S30x30_1_0))
          (broadcastInDim S100000x30 ![0, 1] bcast_S1x30_S100000x30_0_1 (broadcastInDim S1x30 ![1] bcast_S30_S1x30_1 b)))
        (broadcastInDim S100000x30 ![] bcast_S_S100000x30 (constant (F := Ideal) S_ .f32 0x00000000#32))
      = Cert.Spec.layer h w (Cert.Spec.rowVec b) := by
  funext i
  obtain ⟨r, q, rfl⟩ : ∃ (r : Fin 100000) (q : Fin 30), i = ix2 r q := ⟨i 0, i 1, eq_ix2 i⟩
  show max (Host.dotGeneral (F := Ideal) dot_S100000x30_S30x30_S100000x30_1_0_0_1_n_n none h
          (transpose S30x30 [1, 0] w transposes_S30x30_S30x30_1_0) (ix2 r q)
        + broadcastInDim S100000x30 ![0, 1] bcast_S1x30_S100000x30_0_1 (broadcastInDim S1x30 ![1] bcast_S30_S1x30_1 b) (ix2 r q))
      (broadcastInDim S100000x30 ![] bcast_S_S100000x30 (constant (F := Ideal) S_ .f32 0x00000000#32) (ix2 r q))
    = max ((∑ k : Fin 30, h (ix2 r k) * w (ix2 q k)) + b (ix1 q)) 0
  rw [productL, biasL, zeros]
  refine congrArg (fun s : EReal => max (s + b (ix1 q)) 0) (Finset.sum_congr rfl fun k _ => ?_)
  exact congrArg (fun y : EReal => h (ix2 r k) * y) (transposedL w k q)

/-- The product's dimension numbers contract the features' axis 1 with the transposed weights' axis 0: at output index i
    and contraction index κ the left operand is read at (i 0, κ) -/
private theorem lhsH_0 (i : S100000x5.Idx) (κ : dot_S100000x30_S30x5_S100000x5_1_0_0_1_n_n.contr.Idx) :
    (dot_S100000x30_S30x5_S100000x5_1_0_0_1_n_n.lhsIdx i κ 0).val = (i 0).val := by
  unfold DotDims.lhsIdx
  rw [dif_neg (show ¬(0 : Fin S100000x30.rank) ∈ dot_S100000x30_S30x5_S100000x5_1_0_0_1_n_n.lhsBatch by decide),
    dif_pos (show (0 : Fin S100000x30.rank) ∈ dot_S100000x30_S30x5_S100000x5_1_0_0_1_n_n.lhsNonContracting by decide)]
  rfl
private theorem lhsH_1 (i : S100000x5.Idx) (κ : dot_S100000x30_S30x5_S100000x5_1_0_0_1_n_n.contr.Idx) :
    (dot_S100000x30_S30x5_S100000x5_1_0_0_1_n_n.lhsIdx i κ 1).val = (κ ⟨0, by decide⟩).val :=
  dot_S100000x30_S30x5_S100000x5_1_0_0_1_n_n.lhsIdx_val_of_single rfl i κ
/-- and the right operand at (κ, i 1). -/
private theorem rhsH_0 (i : S100000x5.Idx) (κ : dot_S100000x30_S30x5_S100000x5_1_0_0_1_n_n.contr.Idx) :
    (dot_S100000x30_S30x5_S100000x5_1_0_0_1_n_n.rhsIdx i κ 0).val = (κ ⟨0, by decide⟩).val :=
  dot_S100000x30_S30x5_S100000x5_1_0_0_1_n_n.rhsIdx_val_of_single rfl i κ
private theorem rhsH_1 (i : S100000x5.Idx) (κ : dot_S100000x30_S30x5_S100000x5_1_0_0_1_n_n.contr.Idx) :
    (dot_S100000x30_S30x5_S100000x5_1_0_0_1_n_n.rhsIdx i κ 1).val = (i 1).val := by
  unfold DotDims.rhsIdx
  rw [dif_neg (show ¬(1 : Fin S30x5.rank) ∈ dot_S100000x30_S30x5_S100000x5_1_0_0_1_n_n.rhsBatch by decide),
    dif_pos (show (1 : Fin S30x5.rank) ∈ dot_S100000x30_S30x5_S100000x5_1_0_0_1_n_n.rhsNonContracting by decide)]
  rfl

/-- The product at (r, q) is the sum over k of x (r, k) * y (k, q). -/
private theorem productH (x : FVec Ideal S100000x30 .f32) (y : FVec Ideal S30x5 .f32) (r : Fin 100000) (q : Fin 5) :
    Host.dotGeneral (F := Ideal) dot_S100000x30_S30x5_S100000x5_1_0_0_1_n_n none x y (ix2 r q) = ∑ k : Fin 30, x (ix2 r k) * y (ix2 k q) := by
  simp only [Host.dotGeneral]
  rw [Ideal.dotGeneral_apply, ← Equiv.sum_comp (ValueIdx.contrEquiv1 dot_S100000x30_S30x5_S100000x5_1_0_0_1_n_n 30 rfl rfl).symm]
  refine Finset.sum_congr rfl fun k _ => ?_
  have hk := ValueIdx.contrEquiv1_symm_val dot_S100000x30_S30x5_S100000x5_1_0_0_1_n_n 30 rfl rfl k
  have el : dot_S100000x30_S30x5_S100000x5_1_0_0_1_n_n.lhsIdx (ix2 r q) ((ValueIdx.contrEquiv1 dot_S100000x30_S30x5_S100000x5_1_0_0_1_n_n 30 rfl rfl).symm k) = ix2 r k :=
    funext fun a => Fin.ext (by
      match a with
      | ⟨0, _⟩ => exact lhsH_0 _ _
      | ⟨1, _⟩ => exact (lhsH_1 _ _).trans hk)
  have er : dot_S100000x30_S30x5_S100000x5_1_0_0_1_n_n.rhsIdx (ix2 r q) ((ValueIdx.contrEquiv1 dot_S100000x30_S30x5_S100000x5_1_0_0_1_n_n 30 rfl rfl).symm k) = ix2 k q :=
    funext fun a => Fin.ext (by
      match a with
      | ⟨0, _⟩ => exact (rhsH_0 _ _).trans hk
      | ⟨1, _⟩ => exact rhsH_1 _ _)
  rw [el, er]

/-- The transposed weights at (k, q) are the weights at (q, k). -/
private theorem transposedH (w : FVec Ideal S5x30 .f32) (k : Fin 30) (q : Fin 5) :
    transpose S30x5 [1, 0] w transposes_S5x30_S30x5_1_0 (ix2 k q) = w (ix2 q k) :=
  transpose_apply [1, 0] w transposes_S5x30_S30x5_1_0 (ix2 k q) (ix2 q k) (fun a => match a with
    | ⟨0, _⟩ => rfl
    | ⟨1, _⟩ => rfl)

/-- The bias, made a row and repeated down the rows, at (r, q) is the bias at q. -/
private theorem biasH (b : FVec Ideal S5 .f32) (r : Fin 100000) (q : Fin 5) :
    broadcastInDim S100000x5 ![0, 1] bcast_S1x5_S100000x5_0_1 (broadcastInDim S1x5 ![1] bcast_S5_S1x5_1 b) (ix2 r q) = b (ix1 q) := by
  refine (broadcastInDim_apply _ bcast_S1x5_S100000x5_0_1 _ (ix2 r q) (ix2 (0 : Fin 1) q) (fun a => match a with
    | ⟨0, _⟩ => by show 0 = if (1 : Nat) = 1 then 0 else r.val; rw [if_pos rfl]
    | ⟨1, _⟩ => by show q.val = if (5 : Nat) = 1 then 0 else q.val; rw [if_neg (by decide)])).trans ?_
  exact broadcastInDim_apply _ bcast_S5_S1x5_1 b (ix2 (0 : Fin 1) q) (ix1 q) (fun a => match a with
    | ⟨0, _⟩ => by show q.val = if (5 : Nat) = 1 then 0 else q.val; rw [if_neg (by decide)])

theorem head_eq (h : FVec Ideal S100000x30 .f32) (w : FVec Ideal S5x30 .f32) (b : FVec Ideal S5 .f32) :
    addf (F := Ideal) (Host.dotGeneral (F := Ideal) dot_S100000x30_S30x5_S100000x5_1_0_0_1_n_n none h
          (transpose S30x5 [1, 0] w transposes_S5x30_S30x5_1_0))
        (broadcastInDim S100000x5 ![0, 1] bcast_S1x5_S100000x5_0_1 (broadcastInDim S1x5 ![1] bcast_S5_S1x5_1 b))
      = Cert.Spec.head h w (Cert.Spec.rowVec b) := by
  funext i
  obtain ⟨r, q, rfl⟩ : ∃ (r : Fin 100000) (q : Fin 5), i = ix2 r q := ⟨i 0, i 1, eq_ix2 i⟩
  show Host.dotGeneral (F := Ideal) dot_S100000x30_S30x5_S100000x5_1_0_0_1_n_n none h
          (transpose S30x5 [1, 0] w transposes_S5x30_S30x5_1_0) (ix2 r q)
        + broadcastInDim S100000x5 ![0, 1] bcast_S1x5_S100000x5_0_1 (broadcastInDim S1x5 ![1] bcast_S5_S1x5_1 b) (ix2 r q)
    = (∑ k : Fin 30, h (ix2 r k) * w (ix2 q k)) + b (ix1 q)
  rw [productH, biasH]
  refine congrArg (fun s : EReal => s + b (ix1 q)) (Finset.sum_congr rfl fun k _ => ?_)
  exact congrArg (fun y : EReal => h (ix2 r k) * y) (transposedH w k q)

end Cert.RefLayer

end
-- ==== Proof.RefEmbed.lean ====
/-
  The reference's embedding lookup read at an index: for an id inside the table the gathered row is the table's row at
  the id.
-/
import proofs.«419415_j21852793602865_2_alg».proof.Proof.Gen.ReferenceIdeal.Read
import proofs.«419415_j21852793602865_2_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.RefEmbed

open Idealize.ShloMosaic Idealize.ShloMosaic.ValueIdx Cert.ReferenceIdeal Cert.ReferenceIdeal.Read

/-- A word below 128 read as a signed integer is the natural number it spells. -/
private theorem signed_small (w : BitVec 32) (hw : w.toNat < 128) : w.toInt.toNat = w.toNat := by
  rw [BitVec.toInt_eq_toNat_of_lt (by omega)]
  exact Int.toNat_natCast _

/-- A word below 128 is not negative: the signed comparison with zero answers no. -/
private theorem not_negative_small (w : BitVec 32) (hw : w.toNat < 128) : IntOp.cmpi .slt w 0#32 = 0#1 := by
  refine eq_zero_of_ne_one fun h => ?_
  have hlt := (StableHlo.Predicate.slt_iff_toNat (a := w) (b := 0#32) (by omega) (by decide)).mp h
  exact absurd hlt (Nat.not_lt_zero _)

/-- The wrap of negative ids leaves an id inside the table alone. -/
private theorem wrapped_id (x0 : IVec S100000 32) (hx : ∀ i : S100000.Idx, (x0 i).toNat < 128) (i : S100000.Idx) :
    val_main_v11 (F := Ideal) x0 i = x0 i := by
  rw [val_main_v11_apply, val_main_v8_apply, val_main_v7_apply, val_main_c_apply, not_negative_small _ (hx i)]
  exact select_zero _ _

/-- The column of start indices holds, in row r, the id of node r. -/
private theorem start_column (x0 : IVec S100000 32) (hx : ∀ i : S100000.Idx, (x0 i).toNat < 128) (r : Fin 100000) :
    val_main_v12 (F := Ideal) x0 (ix2 r (0 : Fin 1)) = x0 (ix1 r) := by
  rw [val_main_v12_apply, wrapped_id x0 hx]
  exact congrArg x0 (funext fun a => match a with | ⟨0, _⟩ => rfl)

/-- The lookup reads, for entry (r, q) of its result, the table at row "start index r, clamped into the table"
    and column q: axis 0 of the table is indexed by the start index and collapsed, axis 1 is the offset axis. -/
private theorem lookup_entry (x2 : FVec Ideal S128x30 .f32) (idx : IVec S100000x1 32) (r : Fin 100000) (q : Fin 30) :
    Host.gather gather_S128x30_S100000x1_S100000x30_1_0_n_n_0_1_130 x2 idx (ix2 r q)
      = x2 (ix2 (⟨min (idx (ix2 r (0 : Fin 1))).toInt.toNat 127, by omega⟩ : Fin 128) q) := by
  unfold Host.gather
  congr 1
  funext a
  refine Fin.ext ?_
  match a with
  | ⟨0, _⟩ =>
    show gather_S128x30_S100000x1_S100000x30_1_0_n_n_0_1_130.start (ix2 r q) idx 0
      + gather_S128x30_S100000x1_S100000x30_1_0_n_n_0_1_130.batchCoord (ix2 r q) 0
      + gather_S128x30_S100000x1_S100000x30_1_0_n_n_0_1_130.offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x30_S100000x1_S100000x30_1_0_n_n_0_1_130.startIndexMap
      from List.mem_singleton.mpr rfl)]
    have hsi : gather_S128x30_S100000x1_S100000x30_1_0_n_n_0_1_130.siIdx (ix2 r q)
        ⟨List.idxOf (0 : Fin 2) gather_S128x30_S100000x1_S100000x30_1_0_n_n_0_1_130.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S128x30_S100000x1_S100000x30_1_0_n_n_0_1_130.start (ix2 r q) idx 1
      + gather_S128x30_S100000x1_S100000x30_1_0_n_n_0_1_130.batchCoord (ix2 r q) 1
      + gather_S128x30_S100000x1_S100000x30_1_0_n_n_0_1_130.offCoord (ix2 r q) 1 = q.val
    rw [GatherDims.batchCoord_eq_zero _ _ _ List.not_mem_nil]
    unfold GatherDims.start
    rw [dif_neg (show (1 : Fin 2) ∉ gather_S128x30_S100000x1_S100000x30_1_0_n_n_0_1_130.startIndexMap
      from by decide)]
    simp only [Nat.add_zero, Nat.zero_add]
    rfl

theorem embed_eq (x0 : IVec S100000 32) (x2 : FVec Ideal S128x30 .f32) (hx : ∀ i : S100000.Idx, (x0 i).toNat < 128) :
    val_main_v13 (F := Ideal) x0 x2 = Cert.Spec.embedRows (Cert.Spec.colVec x0) x2 := by
  funext j
  obtain ⟨r, q, rfl⟩ : ∃ (r : Fin 100000) (q : Fin 30), j = ix2 r q := ⟨j 0, j 1, eq_ix2 j⟩
  unfold val_main_v13
  rw [lookup_entry]
  have hr := hx (ix1 r)
  show x2 (ix2 _ q) = x2 (ix2 (⟨(x0 (ix1 r)).toNat % 128, Nat.mod_lt _ (by decide)⟩ : Fin 128) q)
  refine congrArg (fun s : Fin 128 => x2 (ix2 s q)) (Fin.ext ?_)
  show min (val_main_v12 (F := Ideal) x0 (ix2 r (0 : Fin 1))).toInt.toNat 127 = (x0 (ix1 r)).toNat % 128
  rw [start_column x0 hx, signed_small _ hr, Nat.mod_eq_of_lt hr]
  omega

end Cert.RefEmbed

end
-- ==== Proof.RefValue.lean ====
/-
  The reference's result as one function of the argument arrays: the network over the reference's neighbourhood sum.
-/
import proofs.«419415_j21852793602865_2_alg».proof.Proof.Gen.ReferenceIdeal.Run
import proofs.«419415_j21852793602865_2_alg».proof.Proof.Gen.ReferenceIdeal.Read
import proofs.«419415_j21852793602865_2_alg».proof.Proof.RChain
import proofs.«419415_j21852793602865_2_alg».proof.Proof.RefLayer
import proofs.«419415_j21852793602865_2_alg».proof.Proof.RefEmbed
import proofs.«419415_j21852793602865_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.RefValue

open Idealize.ShloMosaic Idealize.ShloMosaic.ValueIdx Cert.ReferenceIdeal Cert.ReferenceIdeal.Read

/-! The edge side: every layer recomputes the edge list with self loops, the degrees and the wrapped source indices
    under new names; each copy is the same function of the edge array. -/

/-- The sources with the self loops appended. -/
private theorem row_eq (x1 : IVec S2x1600000 32) : val_main_v3 (F := Ideal) x1 = Cert.RChain.rowOf x1 := by
  unfold val_main_v3 val_main_v2 val_main_v1 val_main_v0 Cert.RChain.rowOf
  rfl

/-- The targets with the self loops appended. -/
private theorem col_eq (x1 : IVec S2x1600000 32) : val_main_v6 (F := Ideal) x1 = Cert.RChain.colOf x1 := by
  unfold val_main_v6 val_main_v5 val_main_v4 val_main_v0 Cert.RChain.colOf
  rfl

/-! The degrees, one copy per layer. -/

private theorem deg1_eq (x1 : IVec S2x1600000 32) : val_main_v17 (F := Ideal) x1 = Cert.RChain.degOf x1 := by
  unfold val_main_v17 val_main_v15 val_main_cst_1 val_main_v16 val_main_v14 val_main_cst Cert.RChain.degOf
  rw [row_eq]

private theorem deg2_eq (x1 : IVec S2x1600000 32) : val_main_v47 (F := Ideal) x1 = Cert.RChain.degOf x1 := by
  unfold val_main_v47 val_main_v45 val_main_cst_8 val_main_v46 val_main_v44 val_main_cst_7 Cert.RChain.degOf
  rw [row_eq]

private theorem deg3_eq (x1 : IVec S2x1600000 32) : val_main_v77 (F := Ideal) x1 = Cert.RChain.degOf x1 := by
  unfold val_main_v77 val_main_v75 val_main_cst_15 val_main_v76 val_main_v74 val_main_cst_14 Cert.RChain.degOf
  rw [row_eq]

/-! The sources as gather indices, two copies per layer (one for the features, one for the degrees). -/

private theorem src1a_eq (x1 : IVec S2x1600000 32) : val_main_v23 (F := Ideal) x1 = Cert.RChain.srcIdx x1 := by
  unfold val_main_v23 val_main_v22 val_main_v19 val_main_v18 val_main_c_2 val_main_v21 val_main_v20 val_main_c_3 Cert.RChain.srcIdx
  rw [row_eq]

private theorem src1b_eq (x1 : IVec S2x1600000 32) : val_main_v30 (F := Ideal) x1 = Cert.RChain.srcIdx x1 := by
  unfold val_main_v30 val_main_v29 val_main_v26 val_main_v25 val_main_c_4 val_main_v28 val_main_v27 val_main_c_5 Cert.RChain.srcIdx
  rw [row_eq]

private theorem src2a_eq (x1 : IVec S2x1600000 32) : val_main_v53 (F := Ideal) x1 = Cert.RChain.srcIdx x1 := by
  unfold val_main_v53 val_main_v52 val_main_v49 val_main_v48 val_main_c_9 val_main_v51 val_main_v50 val_main_c_10 Cert.RChain.srcIdx
  rw [row_eq]

private theorem src2b_eq (x1 : IVec S2x1600000 32) : val_main_v60 (F := Ideal) x1 = Cert.RChain.srcIdx x1 := by
  unfold val_main_v60 val_main_v59 val_main_v56 val_main_v55 val_main_c_11 val_main_v58 val_main_v57 val_main_c_12 Cert.RChain.srcIdx
  rw [row_eq]

private theorem src3a_eq (x1 : IVec S2x1600000 32) : val_main_v83 (F := Ideal) x1 = Cert.RChain.srcIdx x1 := by
  unfold val_main_v83 val_main_v82 val_main_v79 val_main_v78 val_main_c_16 val_main_v81 val_main_v80 val_main_c_17 Cert.RChain.srcIdx
  rw [row_eq]

private theorem src3b_eq (x1 : IVec S2x1600000 32) : val_main_v90 (F := Ideal) x1 = Cert.RChain.srcIdx x1 := by
  unfold val_main_v90 val_main_v89 val_main_v86 val_main_v85 val_main_c_18 val_main_v88 val_main_v87 val_main_c_19 Cert.RChain.srcIdx
  rw [row_eq]

/-! The neighbourhood sum before each hidden layer is the reference's neighbourhood-sum map of the stage before it. -/

private theorem agg1_eq (x0 : IVec S100000 32) (x1 : IVec S2x1600000 32) (x2 : FVec Ideal S128x30 .f32) :
    val_main_v37 (F := Ideal) x0 x1 x2 = Cert.RChain.agg x1 (val_main_v13 (F := Ideal) x0 x2) := by
  unfold val_main_v37 val_main_v35 val_main_cst_6 val_main_v36 val_main_v34 val_main_v24 val_main_v33 val_main_v32 val_main_v31 Cert.RChain.agg
  rw [col_eq, src1a_eq, src1b_eq, deg1_eq]

private theorem agg2_eq (x0 : IVec S100000 32) (x1 : IVec S2x1600000 32) (x2 : FVec Ideal S128x30 .f32)
    (x3 : FVec Ideal S30x30 .f32) (x4 : FVec Ideal S30 .f32) :
    val_main_v67 (F := Ideal) x0 x1 x2 x3 x4 = Cert.RChain.agg x1 (val_main_v43 (F := Ideal) x0 x1 x2 x3 x4) := by
  unfold val_main_v67 val_main_v65 val_main_cst_13 val_main_v66 val_main_v64 val_main_v54 val_main_v63 val_main_v62 val_main_v61 Cert.RChain.agg
  rw [col_eq, src2a_eq, src2b_eq, deg2_eq]

private theorem agg3_eq (x0 : IVec S100000 32) (x1 : IVec S2x1600000 32) (x2 : FVec Ideal S128x30 .f32)
    (x3 : FVec Ideal S30x30 .f32) (x4 : FVec Ideal S30 .f32) (x5 : FVec Ideal S30x30 .f32) (x6 : FVec Ideal S30 .f32) :
    val_main_v97 (F := Ideal) x0 x1 x2 x3 x4 x5 x6
      = Cert.RChain.agg x1 (val_main_v73 (F := Ideal) x0 x1 x2 x3 x4 x5 x6) := by
  unfold val_main_v97 val_main_v95 val_main_cst_20 val_main_v96 val_main_v94 val_main_v84 val_main_v93 val_main_v92 val_main_v91 Cert.RChain.agg
  rw [col_eq, src3a_eq, src3b_eq, deg3_eq]

/-! Each hidden layer's stages are the layer map of the neighbourhood sum before it; the last stages are the head. -/

private theorem layer1_eq (x0 : IVec S100000 32) (x1 : IVec S2x1600000 32) (x2 : FVec Ideal S128x30 .f32)
    (x3 : FVec Ideal S30x30 .f32) (x4 : FVec Ideal S30 .f32) :
    val_main_v43 (F := Ideal) x0 x1 x2 x3 x4
      = Cert.Spec.layer (val_main_v37 (F := Ideal) x0 x1 x2) x3 (Cert.Spec.rowVec x4) := by
  unfold val_main_v43 val_main_v42 val_main_v39 val_main_v38 val_main_v41 val_main_v40 val_main_call0_v0 val_main_call0_cst
  exact Cert.RefLayer.layer_eq _ _ _

private theorem layer2_eq (x0 : IVec S100000 32) (x1 : IVec S2x1600000 32) (x2 : FVec Ideal S128x30 .f32)
    (x3 : FVec Ideal S30x30 .f32) (x4 : FVec Ideal S30 .f32) (x5 : FVec Ideal S30x30 .f32) (x6 : FVec Ideal S30 .f32) :
    val_main_v73 (F := Ideal) x0 x1 x2 x3 x4 x5 x6
      = Cert.Spec.layer (val_main_v67 (F := Ideal) x0 x1 x2 x3 x4) x5 (Cert.Spec.rowVec x6) := by
  unfold val_main_v73 val_main_v72 val_main_v69 val_main_v68 val_main_v71 val_main_v70 val_main_call1_v0 val_main_call1_cst
  exact Cert.RefLayer.layer_eq _ _ _

private theorem layer3_eq (x0 : IVec S100000 32) (x1 : IVec S2x1600000 32) (x2 : FVec Ideal S128x30 .f32)
    (x3 : FVec Ideal S30x30 .f32) (x4 : FVec Ideal S30 .f32) (x5 : FVec Ideal S30x30 .f32) (x6 : FVec Ideal S30 .f32)
    (x7 : FVec Ideal S30x30 .f32) (x8 : FVec Ideal S30 .f32) :
    val_main_v103 (F := Ideal) x0 x1 x2 x3 x4 x5 x6 x7 x8
      = Cert.Spec.layer (val_main_v97 (F := Ideal) x0 x1 x2 x3 x4 x5 x6) x7 (Cert.Spec.rowVec x8) := by
  unfold val_main_v103 val_main_v102 val_main_v99 val_main_v98 val_main_v101 val_main_v100 val_main_call2_v0 val_main_call2_cst
  exact Cert.RefLayer.layer_eq _ _ _

private theorem head_eq (x0 : IVec S100000 32) (x1 : IVec S2x1600000 32) (x2 : FVec Ideal S128x30 .f32)
    (x3 : FVec Ideal S30x30 .f32) (x4 : FVec Ideal S30 .f32) (x5 : FVec Ideal S30x30 .f32) (x6 : FVec Ideal S30 .f32)
    (x7 : FVec Ideal S30x30 .f32) (x8 : FVec Ideal S30 .f32) (x9 : FVec Ideal S5x30 .f32) (x10 : FVec Ideal S5 .f32) :
    val_main_v108 (F := Ideal) x0 x1 x2 x3 x4 x5 x6 x7 x8 x9 x10
      = Cert.Spec.head (val_main_v103 (F := Ideal) x0 x1 x2 x3 x4 x5 x6 x7 x8) x9 (Cert.Spec.rowVec x10) := by
  unfold val_main_v108 val_main_v105 val_main_v104 val_main_v107 val_main_v106
  exact Cert.RefLayer.head_eq _ _ _

/-- The reference's last stage is the network over its own neighbourhood sum, for ids inside the table. -/
theorem result_eq (x0 : IVec S100000 32) (x1 : IVec S2x1600000 32) (x2 : FVec Ideal S128x30 .f32)
    (x3 : FVec Ideal S30x30 .f32) (x4 : FVec Ideal S30 .f32) (x5 : FVec Ideal S30x30 .f32) (x6 : FVec Ideal S30 .f32)
    (x7 : FVec Ideal S30x30 .f32) (x8 : FVec Ideal S30 .f32) (x9 : FVec Ideal S5x30 .f32) (x10 : FVec Ideal S5 .f32)
    (hx : ∀ i : S100000.Idx, (x0 i).toNat < 128) :
    val_main_v108 (F := Ideal) x0 x1 x2 x3 x4 x5 x6 x7 x8 x9 x10
      = Cert.Spec.net (Cert.RChain.agg x1) x0 x2 x3 x4 x5 x6 x7 x8 x9 x10 := by
  rw [head_eq, layer3_eq, agg3_eq, layer2_eq, agg2_eq, layer1_eq, agg1_eq, Cert.RefEmbed.embed_eq x0 x2 hx]
  rfl

end Cert.RefValue

end
-- ==== Proof.lean ====
/-
  Both programs compute one network: each node's row of the embedding table at its id, three hidden layers
  max (A h · wᵀ + b) 0 each applied after the degree-normalised neighbourhood sum A over the edge list, and an affine
  output head. The kernel program spells A with the reciprocal degree, the reference with a division by the degree;
  no degree is zero, so the two spellings are one map, and the two results are the same network of the same arguments.
-/
import proofs.«419415_j21852793602865_2_alg».proof.Defs
import proofs.«419415_j21852793602865_2_alg».proof.Proof.Gen.Kernel
import proofs.«419415_j21852793602865_2_alg».proof.Proof.Gen.Kernel.Skeleton
import proofs.«419415_j21852793602865_2_alg».proof.Proof.Gen.Kernel.Launch
import proofs.«419415_j21852793602865_2_alg».proof.Proof.Gen.Kernel.Points
import proofs.«419415_j21852793602865_2_alg».proof.Proof.Gen.Kernel.Frame
import proofs.«419415_j21852793602865_2_alg».proof.Proof.Gen.KernelIdeal
import proofs.«419415_j21852793602865_2_alg».proof.Proof.Gen.KernelIdeal.Skeleton
import proofs.«419415_j21852793602865_2_alg».proof.Proof.Gen.KernelIdeal.Launch
import proofs.«419415_j21852793602865_2_alg».proof.Proof.Gen.KernelIdeal.Points
import proofs.«419415_j21852793602865_2_alg».proof.Proof.Gen.KernelIdeal.Frame
import proofs.«419415_j21852793602865_2_alg».proof.Proof.Gen.ReferenceIdeal
import proofs.«419415_j21852793602865_2_alg».proof.Proof.Gen.Pre_finite_inputs
import proofs.«419415_j21852793602865_2_alg».proof.Proof.Gen.ReferenceIdeal.Run
import proofs.«419415_j21852793602865_2_alg».proof.Proof.Gen.ReferenceIdeal.Read
import proofs.«419415_j21852793602865_2_alg».proof.Proof.KernelRun
import proofs.«419415_j21852793602865_2_alg».proof.Proof.KValue
import proofs.«419415_j21852793602865_2_alg».proof.Proof.Pre
import proofs.«419415_j21852793602865_2_alg».proof.Proof.Bridge
import proofs.«419415_j21852793602865_2_alg».proof.Proof.AggEq
import proofs.«419415_j21852793602865_2_alg».proof.Proof.RefValue
import Idealize.ShloMosaic.Adequacy
import Idealize.ShloMosaic.Init

noncomputable section

namespace Cert.Proof

open Idealize.ShloMosaic Idealize.SL.Sem

/-- The reference's last stage, at arguments equal to the kernel program's, is the network over the kernel
    program's neighbourhood sum: it is the network over the reference's own, and the two sums are one map. -/
private theorem ref_value
    (x0 y0 : IVec (⟨1, ![100000]⟩ : Shape) 32) (x1 y1 : IVec (⟨2, ![2, 1600000]⟩ : Shape) 32)
    (x2 y2 : FVec Ideal (⟨2, ![128, 30]⟩ : Shape) .f32)
    (x3 y3 : FVec Ideal (⟨2, ![30, 30]⟩ : Shape) .f32) (x4 y4 : FVec Ideal (⟨1, ![30]⟩ : Shape) .f32)
    (x5 y5 : FVec Ideal (⟨2, ![30, 30]⟩ : Shape) .f32) (x6 y6 : FVec Ideal (⟨1, ![30]⟩ : Shape) .f32)
    (x7 y7 : FVec Ideal (⟨2, ![30, 30]⟩ : Shape) .f32) (x8 y8 : FVec Ideal (⟨1, ![30]⟩ : Shape) .f32)
    (x9 y9 : FVec Ideal (⟨2, ![5, 30]⟩ : Shape) .f32) (x10 y10 : FVec Ideal (⟨1, ![5]⟩ : Shape) .f32)
    (e0 : y0 = x0) (e1 : y1 = x1) (e2 : y2 = x2) (e3 : y3 = x3) (e4 : y4 = x4) (e5 : y5 = x5) (e6 : y6 = x6)
    (e7 : y7 = x7) (e8 : y8 = x8) (e9 : y9 = x9) (e10 : y10 = x10)
    (hx : ∀ i : (⟨1, ![100000]⟩ : Shape).Idx, (x0 i).toNat < 128) :
    Cert.ReferenceIdeal.Read.val_main_v108 (F := Ideal) y0 y1 y2 y3 y4 y5 y6 y7 y8 y9 y10
      = Cert.Spec.net (Cert.KChain.agg x1) x0 x2 x3 x4 x5 x6 x7 x8 x9 x10 := by
  subst e0 e1 e2 e3 e4 e5 e6 e7 e8 e9 e10
  rw [Cert.RefValue.result_eq y0 y1 y2 y3 y4 y5 y6 y7 y8 y9 y10 hx]
  exact congrArg (fun A => Cert.Spec.net A y0 y2 y3 y4 y5 y6 y7 y8 y9 y10) (funext (Cert.AggEq.agg_eq y1)).symm

/-- From memories agreeing on the arguments both programs run and end with one result, the network of the
    kernel program's arguments, and unchanged arguments. -/
theorem algebraic : Cert.algebraic_KernelIdeal_ReferenceIdeal := by
  intro m ρ m' ρ' hpre hagree
  -- under the precondition every id is inside the table
  have hid : ∀ c : Dev Cert.KernelIdeal.nD, ∀ i : (⟨1, ![100000]⟩ : Shape).Idx,
      ((m ((c.tc : Thread Cert.KernelIdeal.nD Cert.KernelIdeal.τ).loc Cert.KernelIdeal.main_arg0)) i : BitVec 32).toNat < 128 :=
    fun c => Cert.PreRead.id_lt _ _ _ _ _ _ _ _ _ _ _ (hpre c)
  refine ⟨fun c => Cert.Spec.net (Cert.KChain.agg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KValue.result m ρ c (hid c)), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    exact (Cert.ReferenceIdeal.Read.val_main_v108_eq m' c).trans
      (ref_value _ _ _ _ _ _ _ _ _ _ _ _ _ _ _ _ _ _ _ _ _ _ e0 e1 e2 e3 e4 e5 e6 e7 e8 e9 e10 (hid c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
